-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x40 : Shape := ⟨2, ![16384, 40]⟩
abbrev S2048 : Shape := ⟨1, ![2048]⟩
abbrev S16384x4 : Shape := ⟨2, ![16384, 4]⟩
abbrev S2048x4 : Shape := ⟨2, ![2048, 4]⟩
abbrev S_ : Shape := ⟨0, ![]⟩

class Facts : Prop where
  bcast_S_S16384x40 : S_.BroadcastsInDim S16384x40 (![] : Fin 0 → Fin S16384x40.rank)
  reducesTo_S16384x40_S_d0_1 : S16384x40.ReducesTo [0, 1] S_
  h_S_ : 0 < S_.numel
  bcast_S_S16384x4 : S_.BroadcastsInDim S16384x4 (![] : Fin 0 → Fin S16384x4.rank)
  reducesTo_S16384x4_S_d0_1 : S16384x4.ReducesTo [0, 1] S_
  bcast_S_S2048x4 : S_.BroadcastsInDim S2048x4 (![] : Fin 0 → Fin S2048x4.rank)
  reducesTo_S2048x4_S_d0_1 : S2048x4.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg1 : IVec S2048 32) (main_v13 : IVec S_ 1) (main_v15 : IVec S2048 1) (main_c_5 : IVec S_ 32) : IVec S_ 1 :=
  let main_v16 : IVec S2048 32 := broadcastInDim S2048 ![] bcast_S_S2048 main_c_5
  let main_v17 : IVec S2048 1 := cmpi .sle main_arg1 main_v16
  let main_v18 : IVec S2048 1 := andi main_v15 main_v17
  let main_c_6 : IVec S_ 1 := constantI S_ 1 1#1
  let main_v19 : IVec S_ 1 := (fun x v => Host.reduce IntOp.andi x v reducesTo_S2048_S_d0 h_S_) main_v18 main_c_6
  let main_v20 : IVec S_ 1 := andi main_v13 main_v19
  main_v20

def fn {F : FTy → Type} [FloatOps F] (main_arg0 : FVec F S16384x40 .f32) (main_arg1 : IVec S2048 32) (main_arg2 : FVec F S16384x4 .f32) (main_arg3 : FVec F S2048x4 .f32) : IVec S_ 1 :=
  let main_v0 : FVec F S16384x40 .f32 := Host.absf main_arg0
  let main_cst : FVec F S_ .f32 := constant S_ .f32 0x7F800000#32
  let main_v1 : FVec F S16384x40 .f32 := broadcastInDim S16384x40 ![] bcast_S_S16384x40 main_cst
  let main_v2 : IVec S16384x40 1 := cmpf .olt main_v0 main_v1
  let main_c : IVec S_ 1 := constantI S_ 1 1#1
  let main_v3 : IVec S_ 1 := (fun x v => Host.reduce IntOp.andi x v reducesTo_S16384x40_S_d0_1 h_S_) main_v2 main_c
  let main_v4 : FVec F S16384x4 .f32 := Host.absf main_arg2
  let main_cst_0 : FVec F S_ .f32 := constant S_ .f32 0x7F800000#32
  let main_v5 : FVec F S16384x4 .f32 := broadcastInDim S16384x4 ![] bcast_S_S16384x4 main_cst_0
  let main_v6 : IVec S16384x4 1 := cmpf .olt main_v4 main_v5
  let main_c_1 : IVec S_ 1 := constantI S_ 1 1#1
  let main_v7 : IVec S_ 1 := (fun x v => Host.reduce IntOp.andi x v reducesTo_S16384x4_S_d0_1 h_S_) main_v6 main_c_1
  let main_v8 : IVec S_ 1 := andi main_v3 main_v7
  let main_v9 : FVec F S2048x4 .f32 := Host.absf main_arg3
  let main_cst_2 : FVec F S_ .f32 := constant S_ .f32 0x7F800000#32
  let main_v10 : FVec F S2048x4 .f32 := broadcastInDim S2048x4 ![] bcast_S_S2048x4 main_cst_2
  let main_v11 : IVec S2048x4 1 := cmpf .olt main_v9 main_v10
  let main_c_3 : IVec S_ 1 := constantI S_ 1 1#1
  let main_v12 : IVec S_ 1 := (fun x v => Host.reduce IntOp.andi x v reducesTo_S2048x4_S_d0_1 h_S_) main_v11 main_c_3
  let main_v13 : IVec S_ 1 := andi main_v8 main_v12
  let main_c_4 : IVec S_ 32 := constantI S_ 32 4294967257#32
  let main_v14 : IVec S2048 32 := broadcastInDim S2048 ![] bcast_S_S2048 main_c_4
  let main_v15 : IVec S2048 1 := cmpi .sge main_arg1 main_v14
  let main_c_5 : IVec S_ 32 := constantI S_ 32 40#32
  fn_part1 (F := F) main_arg1 main_v13 main_v15 main_c_5
-- ==== Kernel.lean ====
abbrev S16384x40 : Shape := ⟨2, ![16384, 40]⟩
abbrev S2048 : Shape := ⟨1, ![2048]⟩
abbrev S16384x4 : Shape := ⟨2, ![16384, 4]⟩
abbrev S2048x4 : Shape := ⟨2, ![2048, 4]⟩
abbrev S4x2048 : Shape := ⟨2, ![4, 2048]⟩
abbrev S_ : Shape := ⟨0, ![]⟩
abbrev S2048x1 : Shape := ⟨2, ![2048, 1]⟩
abbrev S1x40 : Shape := ⟨2, ![1, 40]⟩
abbrev S2048x40 : Shape := ⟨2, ![2048, 40]⟩
abbrev S40x2048 : Shape := ⟨2, ![40, 2048]⟩
abbrev S16384x2048 : Shape := ⟨2, ![16384, 2048]⟩
abbrev S1024x4 : Shape := ⟨2, ![1024, 4]⟩
abbrev S1024x40 : Shape := ⟨2, ![1024, 40]⟩
abbrev S4x1024 : Shape := ⟨2, ![4, 1024]⟩
abbrev S40x1024 : Shape := ⟨2, ![40, 1024]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 47
  | .vmem => 10
  | .smem => 0
  | _ => 0

abbrev bufTy : (tb : Table) → Fin (tcTables nBuf tb) → BufTy
  | .hbm, ⟨0, _⟩ => ⟨S16384x40, .f32⟩
  | .hbm, ⟨1, _⟩ => ⟨S2048, .i32⟩
  | .hbm, ⟨2, _⟩ => ⟨S16384x4, .f32⟩
  | .hbm, ⟨3, _⟩ => ⟨S2048x4, .f32⟩
  | .hbm, ⟨4, _⟩ => ⟨S4x2048, .f32⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S_, .i32⟩
  | .hbm, ⟨23, _⟩ => ⟨S_, .i1⟩
  | .hbm, ⟨24, _⟩ => ⟨S2048, .i1⟩
  | .hbm, ⟨25, _⟩ => ⟨S2048, .i1⟩
  | .hbm, ⟨26, _⟩ => ⟨S2048, .i1⟩
  | .hbm, ⟨27, _⟩ => ⟨S2048, .i32⟩
  | .hbm, ⟨28, _⟩ => ⟨S2048, .i32⟩
  | .hbm, ⟨29, _⟩ => ⟨S2048, .i32⟩
  | .hbm, ⟨30, _⟩ => ⟨S2048x1, .i32⟩
  | .hbm, ⟨31, _⟩ => ⟨S1x40, .i32⟩
  | .hbm, ⟨32, _⟩ => ⟨S2048x40, .i32⟩
  | .hbm, ⟨33, _⟩ => ⟨S2048x40, .i32⟩
  | .hbm, ⟨34, _⟩ => ⟨S2048x40, .i1⟩
  | .hbm, ⟨35, _⟩ => ⟨S2048x40, .f32⟩
  | .hbm, ⟨36, _⟩ => ⟨S40x2048, .f32⟩
  | .hbm, ⟨37, _⟩ => ⟨S16384x40, .f32⟩
  | .hbm, ⟨38, _⟩ => ⟨S16384x40, .f32⟩
  | .hbm, ⟨39, _⟩ => ⟨S_, .f32⟩
  | .hbm, ⟨40, _⟩ => ⟨S16384x40, .f32⟩
  | .hbm, ⟨41, _⟩ => ⟨S16384x40, .f32⟩
  | .hbm, ⟨42, _⟩ => ⟨S_, .f32⟩
  | .hbm, ⟨43, _⟩ => ⟨S16384x40, .f32⟩
  | .hbm, ⟨44, _⟩ => ⟨S16384x40, .f32⟩
  | .hbm, ⟨45, _⟩ => ⟨S16384x40, .bf16⟩
  | .hbm, ⟨46, _⟩ => ⟨S16384x2048, .f32⟩
  | .local _ .vmem, ⟨0, _⟩ => ⟨S1024x4, .f32⟩
  | .local _ .vmem, ⟨1, _⟩ => ⟨S1024x4, .f32⟩
  | .local _ .vmem, ⟨2, _⟩ => ⟨S1024x40, .bf16⟩
  | .local _ .vmem, ⟨3, _⟩ => ⟨S1024x40, .bf16⟩
  | .local _ .vmem, ⟨4, _⟩ => ⟨S4x1024, .f32⟩
  | .local _ .vmem, ⟨5, _⟩ => ⟨S4x1024, .f32⟩
  | .local _ .vmem, ⟨6, _⟩ => ⟨S40x1024, .f32⟩
  | .local _ .vmem, ⟨7, _⟩ => ⟨S40x1024, .f32⟩
  | .local _ .vmem, ⟨8, _⟩ => ⟨S1024x1024, .f32⟩
  | .local _ .vmem, ⟨9, _⟩ => ⟨S1024x1024, .f32⟩
  | _, _ => ⟨S16384x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v3 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst : Ref sig .tc := ⟨.hbm, 39, rfl⟩
abbrev main_v8 : Ref sig .tc := ⟨.hbm, 40, rfl⟩
abbrev main_v9 : Ref sig .tc := ⟨.hbm, 41, rfl⟩
abbrev main_cst_1 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x40 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S2048x4_S4x2048_1_0 : S2048x4.Transposes [1, 0] S4x2048
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x40_0_1 : S2048x1.BroadcastsInDim S2048x40 (![0, 1] : Fin 2 → Fin S2048x40.rank)
  bcast_S1x40_S2048x40_0_1 : S1x40.BroadcastsInDim S2048x40 (![0, 1] : Fin 2 → Fin S2048x40.rank)
  transposes_S2048x40_S40x2048_1_0 : S2048x40.Transposes [1, 0] S40x2048
  bcast_S_S16384x40 : S_.BroadcastsInDim S16384x40 (![] : Fin 0 → Fin S16384x40.rank)
  bitsLt_bf16_f32 : FTy.bits .bf16 < FTy.bits .f32
  inb_S1024x4_S1024x4_0_0 : ∀ a, (![0, 0] : Fin 2 → Nat) a + S1024x4.size a ≤ S1024x4.size a
  h_S1024x4 : 0 < S1024x4.numel
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  slices_S1024x4_o0_0_S1024x1 : S1024x4.Slices ![0, 0] S1024x1
  slices_S1024x4_o0_1_S1024x1 : S1024x4.Slices ![0, 1] S1024x1
  slices_S1024x4_o0_2_S1024x1 : S1024x4.Slices ![0, 2] S1024x1
  slices_S1024x4_o0_3_S1024x1 : S1024x4.Slices ![0, 3] S1024x1
  slices_S4x1024_o0_0_S1x1024 : S4x1024.Slices ![0, 0] S1x1024
  slices_S4x1024_o1_0_S1x1024 : S4x1024.Slices ![1, 0] S1x1024
  slices_S4x1024_o2_0_S1x1024 : S4x1024.Slices ![2, 0] S1x1024
  slices_S4x1024_o3_0_S1x1024 : S4x1024.Slices ![3, 0] S1x1024
  broadcasts_S1024x1_S1024x1024 : S1024x1.Broadcasts S1024x1024
  broadcasts_S1x1024_S1024x1024 : S1x1024.Broadcasts S1024x1024
  inb_S1024x40_S1024x40_0_0 : ∀ a, (![0, 0] : Fin 2 → Nat) a + S1024x40.size a ≤ S1024x40.size a
  h_S1024x40 : 0 < S1024x40.numel
  shapeCasts_S1024x40_S1024x40 : S1024x40.ShapeCasts S1024x40
  inb_S40x1024_S40x1024_0_0 : ∀ a, (![0, 0] : Fin 2 → Nat) a + S40x1024.size a ≤ S40x1024.size a
  h_S40x1024 : 0 < S40x1024.numel
  shapeCasts_S40x1024_S40x1024 : S40x1024.ShapeCasts S40x1024
  inb_S1024x1024_S1024x1024_0_0 : ∀ a, (![0, 0] : Fin 2 → Nat) a + S1024x1024.size a ≤ S1024x1024.size a
  h_S1024x1024 : 0 < S1024x1024.numel
  dot_S1024x40_S40x1024_S1024x1024_1_0_0_1_n_n_wf : DotDims.WF S1024x40 S40x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4.size a ≤ S16384x4.size a
  hwx0_0 : ∀ i : grid0.Coords, EltTy.bits .f32 = 32 ∨ (Rect.block (s := S16384x4) S1024x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x40.size a ≤ S16384x40.size a
  hwx0_1 : ∀ i : grid0.Coords, EltTy.bits .bf16 = 32 ∨ (Rect.block (s := S16384x40) S1024x40.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x2048.size a
  hwx0_2 : ∀ i : grid0.Coords, EltTy.bits .f32 = 32 ∨ (Rect.block (s := S4x2048) S4x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S40x1024.size a ≤ S40x2048.size a
  hwx0_3 : ∀ i : grid0.Coords, EltTy.bits .f32 = 32 ∨ (Rect.block (s := S40x2048) S40x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x2048.size a
  hwx0_4 : ∀ i : grid0.Coords, EltTy.bits .f32 = 32 ∨ (Rect.block (s := S16384x2048) S1024x1024.size (cc0_transform_4 i) (hinb0_4 i)).WholeWords (EltTy.packing .f32)

variable [Facts₀]

def dot_S1024x40_S40x1024_S1024x1024_1_0_0_1_n_n : DotDims S1024x40 S40x1024 S1024x1024 where
  lhsContracting := [1]
  rhsContracting := [0]
  lhsNonContracting := [0]
  rhsNonContracting := [1]
  lhsBatch := []
  rhsBatch := []
  wf := dot_S1024x40_S40x1024_S1024x1024_1_0_0_1_n_n_wf

abbrev win0_0 : Pipeline.Window sig grid0 :=
  Pipeline.Window.ofSpec (Memref.whole main_arg2) S1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x40.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S40x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x40 : Shape := ⟨2, ![16384, 40]⟩
abbrev S2048 : Shape := ⟨1, ![2048]⟩
abbrev S16384x4 : Shape := ⟨2, ![16384, 4]⟩
abbrev S2048x4 : Shape := ⟨2, ![2048, 4]⟩
abbrev S_ : Shape := ⟨0, ![]⟩
abbrev S2048x1 : Shape := ⟨2, ![2048, 1]⟩
abbrev S16384x2048 : Shape := ⟨2, ![16384, 2048]⟩
abbrev S16384x1x4 : Shape := ⟨3, ![16384, 1, 4]⟩
abbrev S1x2048x4 : Shape := ⟨3, ![1, 2048, 4]⟩
abbrev S16384x2048x4 : Shape := ⟨3, ![16384, 2048, 4]⟩
abbrev S16384x1 : Shape := ⟨2, ![16384, 1]⟩
abbrev S16384 : Shape := ⟨1, ![16384]⟩
abbrev S16384x2 : Shape := ⟨2, ![16384, 2]⟩
abbrev S16384x1x2 : Shape := ⟨3, ![16384, 1, 2]⟩
abbrev S2048x2 : Shape := ⟨2, ![2048, 2]⟩
abbrev S1x2048x2 : Shape := ⟨3, ![1, 2048, 2]⟩
abbrev S16384x2048x2 : Shape := ⟨3, ![16384, 2048, 2]⟩
abbrev S16384x2048x1 : Shape := ⟨3, ![16384, 2048, 1]⟩
abbrev S1x2048 : Shape := ⟨2, ![1, 2048]⟩

abbrev nBuf : Space → Nat
  | .hbm => 103
  | .vmem => 0
  | .smem => 0
  | _ => 0

abbrev bufTy : (tb : Table) → Fin (tcTables nBuf tb) → BufTy
  | .hbm, ⟨0, _⟩ => ⟨S16384x40, .f32⟩
  | .hbm, ⟨1, _⟩ => ⟨S2048, .i32⟩
  | .hbm, ⟨2, _⟩ => ⟨S16384x4, .f32⟩
  | .hbm, ⟨3, _⟩ => ⟨S2048x4, .f32⟩
  | .hbm, ⟨4, _⟩ => ⟨S16384x40, .f32⟩
  | .hbm, ⟨5, _⟩ => ⟨S16384x40, .f32⟩
  | .hbm, ⟨6, _⟩ => ⟨S_, .f32⟩
  | .hbm, ⟨7, _⟩ => ⟨S16384x40, .f32⟩
  | .hbm, ⟨8, _⟩ => ⟨S16384x40, .f32⟩
  | .hbm, ⟨9, _⟩ => ⟨S_, .f32⟩
  | .hbm, ⟨10, _⟩ => ⟨S16384x40, .f32⟩
  | .hbm, ⟨11, _⟩ => ⟨S16384x40, .f32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S2048x1, .i32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S16384x1x4, .f32⟩
  | .hbm, ⟨28, _⟩ => ⟨S1x2048x4, .f32⟩
  | .hbm, ⟨29, _⟩ => ⟨S16384x2048x4, .f32⟩
  | .hbm, ⟨30, _⟩ => ⟨S16384x2048x4, .f32⟩
  | .hbm, ⟨31, _⟩ => ⟨S16384x2048x4, .f32⟩
  | .hbm, ⟨32, _⟩ => ⟨S16384x2048x4, .f32⟩
  | .hbm, ⟨33, _⟩ => ⟨S_, .f32⟩
  | .hbm, ⟨34, _⟩ => ⟨S16384x2048, .f32⟩
  | .hbm, ⟨35, _⟩ => ⟨S16384x1, .f32⟩
  | .hbm, ⟨36, _⟩ => ⟨S16384, .f32⟩
  | .hbm, ⟨37, _⟩ => ⟨S16384x1, .f32⟩
  | .hbm, ⟨38, _⟩ => ⟨S16384, .f32⟩
  | .hbm, ⟨39, _⟩ => ⟨S16384, .f32⟩
  | .hbm, ⟨40, _⟩ => ⟨S16384x1, .f32⟩
  | .hbm, ⟨41, _⟩ => ⟨S16384, .f32⟩
  | .hbm, ⟨42, _⟩ => ⟨S16384x1, .f32⟩
  | .hbm, ⟨43, _⟩ => ⟨S16384, .f32⟩
  | .hbm, ⟨44, _⟩ => ⟨S16384, .f32⟩
  | .hbm, ⟨45, _⟩ => ⟨S16384, .f32⟩
  | .hbm, ⟨46, _⟩ => ⟨S2048x1, .f32⟩
  | .hbm, ⟨47, _⟩ => ⟨S2048, .f32⟩
  | .hbm, ⟨48, _⟩ => ⟨S2048x1, .f32⟩
  | .hbm, ⟨49, _⟩ => ⟨S2048, .f32⟩
  | .hbm, ⟨50, _⟩ => ⟨S2048, .f32⟩
  | .hbm, ⟨51, _⟩ => ⟨S2048x1, .f32⟩
  | .hbm, ⟨52, _⟩ => ⟨S2048, .f32⟩
  | .hbm, ⟨53, _⟩ => ⟨S2048x1, .f32⟩
  | .hbm, ⟨54, _⟩ => ⟨S2048, .f32⟩
  | .hbm, ⟨55, _⟩ => ⟨S2048, .f32⟩
  | .hbm, ⟨56, _⟩ => ⟨S2048, .f32⟩
  | .hbm, ⟨57, _⟩ => ⟨S16384x2, .f32⟩
  | .hbm, ⟨58, _⟩ => ⟨S16384x1x2, .f32⟩
  | .hbm, ⟨59, _⟩ => ⟨S2048x2, .f32⟩
  | .hbm, ⟨60, _⟩ => ⟨S1x2048x2, .f32⟩
  | .hbm, ⟨61, _⟩ => ⟨S16384x2048x2, .f32⟩
  | .hbm, ⟨62, _⟩ => ⟨S16384x2048x2, .f32⟩
  | .hbm, ⟨63, _⟩ => ⟨S16384x2048x2, .f32⟩
  | .hbm, ⟨64, _⟩ => ⟨S16384x2, .f32⟩
  | .hbm, ⟨65, _⟩ => ⟨S16384x1x2, .f32⟩
  | .hbm, ⟨66, _⟩ => ⟨S2048x2, .f32⟩
  | .hbm, ⟨67, _⟩ => ⟨S1x2048x2, .f32⟩
  | .hbm, ⟨68, _⟩ => ⟨S16384x2048x2, .f32⟩
  | .hbm, ⟨69, _⟩ => ⟨S16384x2048x2, .f32⟩
  | .hbm, ⟨70, _⟩ => ⟨S16384x2048x2, .f32⟩
  | .hbm, ⟨71, _⟩ => ⟨S16384x2048x2, .f32⟩
  | .hbm, ⟨72, _⟩ => ⟨S_, .f32⟩
  | .hbm, ⟨73, _⟩ => ⟨S_, .f32⟩
  | .hbm, ⟨74, _⟩ => ⟨S16384x2048x2, .f32⟩
  | .hbm, ⟨75, _⟩ => ⟨S16384x2048x2, .f32⟩
  | .hbm, ⟨76, _⟩ => ⟨S16384x2048x1, .f32⟩
  | .hbm, ⟨77, _⟩ => ⟨S16384x2048, .f32⟩
  | .hbm, ⟨78, _⟩ => ⟨S16384x2048x1, .f32⟩
  | .hbm, ⟨79, _⟩ => ⟨S16384x2048, .f32⟩
  | .hbm, ⟨80, _⟩ => ⟨S16384x2048, .f32⟩
  | .hbm, ⟨81, _⟩ => ⟨S16384x1, .f32⟩
  | .hbm, ⟨82, _⟩ => ⟨S1x2048, .f32⟩
  | .hbm, ⟨83, _⟩ => ⟨S16384x2048, .f32⟩
  | .hbm, ⟨84, _⟩ => ⟨S16384x2048, .f32⟩
  | .hbm, ⟨85, _⟩ => ⟨S16384x2048, .f32⟩
  | .hbm, ⟨86, _⟩ => ⟨S16384x2048, .f32⟩
  | .hbm, ⟨87, _⟩ => ⟨S_, .f32⟩
  | .hbm, ⟨88, _⟩ => ⟨S16384x2048, .f32⟩
  | .hbm, ⟨89, _⟩ => ⟨S16384x2048, .f32⟩
  | .hbm, ⟨90, _⟩ => ⟨S16384x2048, .f32⟩
  | .hbm, ⟨91, _⟩ => ⟨S16384x2048, .f32⟩
  | .hbm, ⟨92, _⟩ => ⟨S_, .f32⟩
  | .hbm, ⟨93, _⟩ => ⟨S16384x2048, .f32⟩
  | .hbm, ⟨94, _⟩ => ⟨S16384x2048, .f32⟩
  | .hbm, ⟨95, _⟩ => ⟨S_, .f32⟩
  | .hbm, ⟨96, _⟩ => ⟨S16384x2048, .f32⟩
  | .hbm, ⟨97, _⟩ => ⟨S16384x2048, .f32⟩
  | .hbm, ⟨98, _⟩ => ⟨S16384x2048, .f32⟩
  | .hbm, ⟨99, _⟩ => ⟨S_, .f32⟩
  | .hbm, ⟨100, _⟩ => ⟨S16384x2048, .f32⟩
  | .hbm, ⟨101, _⟩ => ⟨S16384x2048, .f32⟩
  | .hbm, ⟨102, _⟩ => ⟨S16384x2048, .f32⟩
  | _, _ => ⟨S16384x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_5 : Ref sig .tc := ⟨.hbm, 72, rfl⟩
abbrev main_call0_v0 : Ref sig .tc := ⟨.hbm, 73, rfl⟩
abbrev main_call0_v1 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_6 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_7 : Ref sig .tc := ⟨.hbm, 92, rfl⟩
abbrev main_v77 : Ref sig .tc := ⟨.hbm, 93, rfl⟩
abbrev main_v78 : Ref sig .tc := ⟨.hbm, 94, rfl⟩
abbrev main_cst_8 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_9 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩

abbrev nD : Nat := 1
abbrev τ : Topo := Topo.v7x

variable {F : FTy → Type} [FloatOps F]

class Facts₀ : Prop where
  bcast_S_S16384x40 : S_.BroadcastsInDim S16384x40 (![] : Fin 0 → Fin S16384x40.rank)
  bcast_S_S2048 : S_.BroadcastsInDim S2048 (![] : Fin 0 → Fin S2048.rank)
  bcast_S2048_S2048x1_0 : S2048.BroadcastsInDim S2048x1 (![0] : Fin 1 → Fin S2048x1.rank)
  bcast_S_S16384x2048 : S_.BroadcastsInDim S16384x2048 (![] : Fin 0 → Fin S16384x2048.rank)
  bcast_S16384x4_S16384x1x4_0_2 : S16384x4.BroadcastsInDim S16384x1x4 (![0, 2] : Fin 2 → Fin S16384x1x4.rank)
  bcast_S2048x4_S1x2048x4_1_2 : S2048x4.BroadcastsInDim S1x2048x4 (![1, 2] : Fin 2 → Fin S1x2048x4.rank)
  bcast_S16384x1x4_S16384x2048x4_0_1_2 : S16384x1x4.BroadcastsInDim S16384x2048x4 (![0, 1, 2] : Fin 3 → Fin S16384x2048x4.rank)
  bcast_S1x2048x4_S16384x2048x4_0_1_2 : S1x2048x4.BroadcastsInDim S16384x2048x4 (![0, 1, 2] : Fin 3 → Fin S16384x2048x4.rank)
  reducesTo_S16384x2048x4_S16384x2048_d2 : S16384x2048x4.ReducesTo [2] S16384x2048
  h_S_ : 0 < S_.numel
  slices_S16384x4_S16384x1_0_2 : S16384x4.Slices ![0, 2] S16384x1
  shapeCasts_S16384x1_S16384 : S16384x1.ShapeCasts S16384
  slices_S16384x4_S16384x1_0_0 : S16384x4.Slices ![0, 0] S16384x1
  slices_S16384x4_S16384x1_0_3 : S16384x4.Slices ![0, 3] S16384x1
  slices_S16384x4_S16384x1_0_1 : S16384x4.Slices ![0, 1] S16384x1
  slices_S2048x4_S2048x1_0_2 : S2048x4.Slices ![0, 2] S2048x1
  shapeCasts_S2048x1_S2048 : S2048x1.ShapeCasts S2048
  slices_S2048x4_S2048x1_0_0 : S2048x4.Slices ![0, 0] S2048x1
  slices_S2048x4_S2048x1_0_3 : S2048x4.Slices ![0, 3] S2048x1
  slices_S2048x4_S2048x1_0_1 : S2048x4.Slices ![0, 1] S2048x1
  slices_S16384x4_S16384x2_0_0 : S16384x4.Slices ![0, 0] S16384x2
  bcast_S16384x2_S16384x1x2_0_2 : S16384x2.BroadcastsInDim S16384x1x2 (![0, 2] : Fin 2 → Fin S16384x1x2.rank)
  slices_S2048x4_S2048x2_0_0 : S2048x4.Slices ![0, 0] S2048x2
  bcast_S2048x2_S1x2048x2_1_2 : S2048x2.BroadcastsInDim S1x2048x2 (![1, 2] : Fin 2 → Fin S1x2048x2.rank)
  bcast_S16384x1x2_S16384x2048x2_0_1_2 : S16384x1x2.BroadcastsInDim S16384x2048x2 (![0, 1, 2] : Fin 3 → Fin S16384x2048x2.rank)
  bcast_S1x2048x2_S16384x2048x2_0_1_2 : S1x2048x2.BroadcastsInDim S16384x2048x2 (![0, 1, 2] : Fin 3 → Fin S16384x2048x2.rank)
  slices_S16384x4_S16384x2_0_2 : S16384x4.Slices ![0, 2] S16384x2
  slices_S2048x4_S2048x2_0_2 : S2048x4.Slices ![0, 2] S2048x2
  bcast_S_S16384x2048x2 : S_.BroadcastsInDim S16384x2048x2 (![] : Fin 0 → Fin S16384x2048x2.rank)
  slices_S16384x2048x2_S16384x2048x1_0_0_0 : S16384x2048x2.Slices ![0, 0, 0] S16384x2048x1
  shapeCasts_S16384x2048x1_S16384x2048 : S16384x2048x1.ShapeCasts S16384x2048
  slices_S16384x2048x2_S16384x2048x1_0_0_1 : S16384x2048x2.Slices ![0, 0, 1] S16384x2048x1
  bcast_S16384_S16384x1_0 : S16384.BroadcastsInDim S16384x1 (![0] : Fin 1 → Fin S16384x1.rank)
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  gather_S16384x40_S2048x1_S16384x2048_0_1_n_n_1_1_163841_wf : GatherDims.WF S16384x40 S2048x1 S16384x2048 [0] [1] [] [1] [] 1 ![16384, 1]

variable [Facts₀]

def gather_S16384x40_S2048x1_S16384x2048_0_1_n_n_1_1_163841 : GatherDims S16384x40 S2048x1 S16384x2048 where
  offsetDims := [0]
  collapsedSliceDims := [1]
  operandBatchingDims := []
  startIndicesBatchingDims := []
  startIndexMap := [1]
  indexVectorDim := 1
  sliceSizes := ![16384, 1]
  wf := gather_S16384x40_S2048x1_S16384x2048_0_1_n_n_1_1_163841_wf

class Facts : Prop extends Facts₀ where

variable [Facts]
-- ==== Proof.LabelRange.lean ====
/-
  What the precondition says of the labels. The printed predicate is the conjunction of the three finiteness tests with
  `all (-39 ≤ lab ∧ lab ≤ 40)` (signed comparisons of 32-bit words); the claim assumes it is 1. A conjunction that is 1
  has both conjuncts 1, and an `all` that is 1 had a 1 at every index: so every label lies between -39 and 40, which is
  exactly when `lab - 1` is an index NumPy accepts for the 40 class columns.
-/
import proofs.«404024_j78365973282877_2_alg».proof.Pre_finite_inputs
import Idealize.ShloMosaic.Lib.ReduceAll
import Idealize.ShloMosaic.Lib.ValueIdx

namespace Cert.Cost

open Idealize.ShloMosaic Idealize.ShloMosaic.ValueIdx Cert.Pre_finite_inputs

/-- A one-bit word made from a Boolean is 1 exactly when the Boolean is true. -/
theorem ofBool_eq_one {b : Bool} (h : BitVec.ofBool b = 1#1) : b = true := by
  cases b
  · exact absurd h (by decide)
  · rfl

/-- Under the precondition every label is between -39 and 40 as a signed word. -/
theorem label_range {F : FTy → Type} [FloatOps F] [Cert.Pre_finite_inputs.Facts]
    (a0 : FVec F S16384x40 .f32) (a1 : IVec S2048 32) (a2 : FVec F S16384x4 .f32) (a3 : FVec F S2048x4 .f32)
    (h : Cert.Pre_finite_inputs.fn (F := F) a0 a1 a2 a3 = fun _ => 1#1) (j : Fin 2048) :
    (-39#32 : BitVec 32).sle (a1 (ix1 j)) = true ∧ (a1 (ix1 j)).sle 40#32 = true := by
  haveI : Subsingleton S_.Idx := ⟨fun a b => funext fun d => d.elim0⟩
  have h0 := congrFun h ix0
  dsimp only [Cert.Pre_finite_inputs.fn, Cert.Pre_finite_inputs.fn_part1] at h0
  -- the outer conjunction: the finiteness tests, and the test of the labels
  obtain ⟨-, hall⟩ := IntOp.andi_eq_one.1 h0
  -- the `all` over the 2048 labels
  have hj := Host.reduce_andi_all _ _ _ _ _ hall (ix1 j)
  obtain ⟨hge, hle⟩ := IntOp.andi_eq_one.1 hj
  refine ⟨?_, ?_⟩
  · have := ofBool_eq_one hge
    exact this
  · have := ofBool_eq_one hle
    exact this

end Cert.Cost
-- ==== Proof.ClassIndex.lean ====
/-
  The class column a label selects, in both programs' integer arithmetic on 32-bit words.
  The reference indexes the 40 class columns with `t - 1`, a negative index wrapped by adding 40, and the gather then
  clamps the result into `[0, 39]`. The kernel takes the remainder of `t - 1` by 40 with the divisor's sign
  (the truncated remainder, plus 40 when it is negative), which always lies in `[0, 39]`. For a label with
  `-39 ≤ t ≤ 40` — exactly the labels for which `t - 1` is an index NumPy accepts for an axis of 40 — the wrapped index is
  already in `[0, 39]`, the clamp does nothing, and the two columns are the same number.
-/
import Idealize.ShloMosaic.PureOps

namespace Cert.Cost

open Idealize.ShloMosaic

/-- The kernel's column: the remainder `r` of `t - 1` by 40, and `r + 40` when `r` is negative (its sign differs from the
    divisor's) and not zero. -/
def kcol (t : BitVec 32) : BitVec 32 :=
  Scalar.select
    (IntOp.andi
      (IntOp.cmpi .ne (IntOp.cmpi .slt (IntOp.remsi .host (IntOp.subi t 1#32) 40#32) 0#32) (IntOp.cmpi .slt (40#32 : BitVec 32) 0#32))
      (IntOp.cmpi .ne (IntOp.remsi .host (IntOp.subi t 1#32) 40#32) 0#32))
    (IntOp.addi (IntOp.remsi .host (IntOp.subi t 1#32) 40#32) 40#32)
    (IntOp.remsi .host (IntOp.subi t 1#32) 40#32)

/-- The reference's start index: `t - 1`, wrapped by 40 when negative. -/
def rcol (t : BitVec 32) : BitVec 32 :=
  Scalar.select (IntOp.cmpi .slt (IntOp.subi t 1#32) 0#32) (IntOp.addi (IntOp.subi t 1#32) 40#32) (IntOp.subi t 1#32)

/-- The column the reference's gather reads: its start index read signed and clamped into `[0, 39]`. -/
def col (t : BitVec 32) : Fin 40 := ⟨min (rcol t).toInt.toNat 39, by omega⟩

/-- The 80 labels `-39 … 40`, one by one: the kernel's column is the word of the reference's clamped column. -/
theorem kcol_table : ∀ k : Fin 80, kcol (BitVec.ofInt 32 ((k.val : Int) - 39))
    = BitVec.ofNat 32 (col (BitVec.ofInt 32 ((k.val : Int) - 39))).val := by
  decide +kernel

/-- A word between `-39` and `40` as a signed integer is one of those 80. -/
theorem label_of_range (t : BitVec 32) (hlo : (-39#32 : BitVec 32).sle t = true) (hhi : t.sle 40#32 = true) :
    ∃ k : Fin 80, t = BitVec.ofInt 32 ((k.val : Int) - 39) := by
  rw [BitVec.sle_eq_decide] at hlo hhi
  have h1 : (-39#32 : BitVec 32).toInt = -39 := by decide
  have h2 : (40#32 : BitVec 32).toInt = 40 := by decide
  simp only [decide_eq_true_eq, h1, h2] at hlo hhi
  refine ⟨⟨(t.toInt + 39).toNat, by omega⟩, ?_⟩
  apply BitVec.eq_of_toInt_eq
  rw [BitVec.toInt_ofInt]
  have : ((⟨(t.toInt + 39).toNat, by omega⟩ : Fin 80).val : Int) - 39 = t.toInt := by
    show (((t.toInt + 39).toNat : Nat) : Int) - 39 = t.toInt
    omega
  rw [this]
  simp only [Int.bmod]
  omega

/-- On the labels NumPy accepts, the kernel's remainder is the reference's wrapped and clamped index. -/
theorem kcol_eq_col (t : BitVec 32) (hlo : (-39#32 : BitVec 32).sle t = true) (hhi : t.sle 40#32 = true) :
    kcol t = BitVec.ofNat 32 (col t).val := by
  obtain ⟨k, rfl⟩ := label_of_range t hlo hhi
  exact kcol_table k

/-- Two column numbers below 40 are equal as 32-bit words exactly when they are equal. -/
theorem ofNat_eq_iff (a k : Fin 40) : BitVec.ofNat 32 a.val = BitVec.ofNat 32 k.val ↔ a = k := by
  constructor
  · intro h
    have := congrArg BitVec.toNat h
    simp only [BitVec.toNat_ofNat] at this
    have ha := a.isLt; have hk := k.isLt
    exact Fin.ext (by omega)
  · rintro rfl; rfl

end Cert.Cost
-- ==== Proof.Spec.lean ====
/-
  The cost matrix both programs compute, as one function of the four argument arrays, entry by entry over the
  extended reals. Entry `(i, j)` pairs prediction `i` (a box `p = pred[i, :]` and its 40 class logits `cls[i, :]`) with
  target `j` (a box `t = tgt[j, :]` and its class label `lab[j]`):

    cost[i, j] = 1 · (1 − σ(cls[i, col(lab[j])])) + 1 · Σ_c |p_c − t_c| + 1 · (− IoU(p, t)),

  where σ(x) = 1 / (1 + e^(−x)), `col` is the class column the label selects (ClassIndex.lean), the L1 distance is over the four
  box coordinates (x1, y1, x2, y2), and IoU(p, t) = overlap / max(area(p) + area(t) − overlap, ε) with the overlap the
  product of the two clipped side lengths max(min(x2) − max(x1), 0) · max(min(y2) − max(y1), 0) and ε the f32 word of
  1e-6. The three unit weights and ε are kept as the f32 words both programs carry; nothing here evaluates them.
-/
import Idealize.ShloMosaic.PureOps.Ideal
import Idealize.ShloMosaic.Lib.ValueIdx
import proofs.«404024_j78365973282877_2_alg».proof.Proof.ClassIndex

noncomputable section

namespace Cert.Cost

open Idealize.ShloMosaic Idealize.ShloMosaic.ValueIdx

/-- The f32 word of 1.0, as an extended real. -/
abbrev one : EReal := Ideal.ofBits .f32 0x3F800000#32
/-- The f32 word of 1e-6, as an extended real. -/
abbrev eps : EReal := Ideal.ofBits .f32 0x358637BD#32

/-- The logistic function as both programs spell it: 1 / (1 + e^(−x)). -/
def sig (x : EReal) : EReal := Ideal.div one (one + Ideal.exp (-x))

/-- |a − b| on the extended reals. -/
def absd (a b : EReal) : EReal := max (a - b) (-(a - b))

/-- The L1 distance of two boxes, the four terms added left to right. -/
def l1 (p t : Fin 4 → EReal) : EReal := absd (p 0) (t 0) + absd (p 1) (t 1) + absd (p 2) (t 2) + absd (p 3) (t 3)

/-- The area of the two boxes' intersection: the product of the clipped side lengths. -/
def overlap (p t : Fin 4 → EReal) : EReal :=
  max (min (p 2) (t 2) - max (p 0) (t 0)) 0 * max (min (p 3) (t 3) - max (p 1) (t 1)) 0

/-- Intersection over union, the union floored at ε. -/
def iou (p t : Fin 4 → EReal) : EReal :=
  Ideal.div (overlap p t) (max ((p 2 - p 0) * (p 3 - p 1) + (t 2 - t 0) * (t 3 - t 1) - overlap p t) eps)

/-- The matching cost of prediction `i` and target `j`. -/
def entry (cls : Fin 40 → EReal) (t : BitVec 32) (p q : Fin 4 → EReal) : EReal :=
  one * (one - sig (cls (col t))) + one * l1 p q + one * -(iou p q)

/-- The cost matrix. -/
def cost (cls : FVec Ideal ⟨2, ![16384, 40]⟩ .f32) (lab : IVec ⟨1, ![2048]⟩ 32) (pred : FVec Ideal ⟨2, ![16384, 4]⟩ .f32)
    (tgt : FVec Ideal ⟨2, ![2048, 4]⟩ .f32) : FVec Ideal ⟨2, ![16384, 2048]⟩ .f32 :=
  fun y => entry (fun k => cls (ix2 (y 0) k)) (lab (ix1 (y 1))) (fun c => pred (ix2 (y 0) c)) (fun c => tgt (ix2 (y 1) c))

end Cert.Cost

end
-- ==== Proof.LibColGather.lean ====
/-
  A column gather read at an index. `x[:, idx]` of a matrix `x : [N, C]` at an integer vector `idx : [M]` lowers to a
  `stablehlo.gather` over the indices as an `[M, 1]` column, with offset axis 0 (a whole column of N rows is one slice),
  the operand's axis 1 collapsed and start-indexed, and the index vector on axis 1. Entry `(i, j)` of the result is
  `x` at row `i` and at the column `idx j` names, read as a signed integer and clamped into `[0, C - 1]`.
-/
import Idealize.ShloMosaic.PureOps.Ideal
import Idealize.ShloMosaic.Lib.ValueIdx

noncomputable section

namespace ColGather

open Idealize.ShloMosaic Idealize.ShloMosaic.ValueIdx

variable {α : Type}

/-- The dimension numbers of `x[:, idx]`: operand `[N, C]`, start indices `[M, 1]`, result `[N, M]`. -/
abbrev dims (N C M : Nat) (wf : GatherDims.WF ⟨2, ![N, C]⟩ ⟨2, ![M, 1]⟩ ⟨2, ![N, M]⟩ [0] [1] [] [1] [] 1 ![N, 1]) :
    GatherDims ⟨2, ![N, C]⟩ ⟨2, ![M, 1]⟩ ⟨2, ![N, M]⟩ where
  offsetDims := [0]
  collapsedSliceDims := [1]
  operandBatchingDims := []
  startIndicesBatchingDims := []
  startIndexMap := [1]
  indexVectorDim := 1
  sliceSizes := ![N, 1]
  wf := wf

/-- The column a start index names: read signed, clamped into `[0, C - 1]`. -/
def clampCol {w : Nat} (C : Nat) (hC : 0 < C) (b : BitVec w) : Fin C := ⟨min b.toInt.toNat (C - 1), by omega⟩

/-- Entry `(i, j)` of the column gather is the matrix at row `i` and the clamped column `idx j`: on the row axis the
    slice starts at 0 and the result's first coordinate is the offset; on the column axis the slice has one element,
    which starts at the clamped start index. -/
theorem gather_apply {N C M w : Nat} (hC : 0 < C)
    (wf : GatherDims.WF ⟨2, ![N, C]⟩ ⟨2, ![M, 1]⟩ ⟨2, ![N, M]⟩ [0] [1] [] [1] [] 1 ![N, 1])
    (x : (⟨2, ![N, C]⟩ : Shape).Idx → α) (idx : IVec ⟨2, ![M, 1]⟩ w) (i : Fin N) (j : Fin M) :
    Host.gather (dims N C M wf) x idx (ix2 i j) = x (ix2 i (clampCol C hC (idx (ix2 j (0 : Fin 1))))) := by
  unfold Host.gather
  congr 1
  funext a
  refine Fin.ext ?_
  show (dims N C M wf).start (ix2 i j) idx a + (dims N C M wf).batchCoord (ix2 i j) a + (dims N C M wf).offCoord (ix2 i j) a = _
  rw [GatherDims.batchCoord_eq_zero _ _ _ List.not_mem_nil, Nat.add_zero]
  match a with
  | ⟨0, _⟩ =>
    have h0 : (⟨0, by decide⟩ : Fin 2) ∉ (dims N C M wf).startIndexMap := by
      show (⟨0, by decide⟩ : Fin 2) ∉ [(1 : Fin 2)]
      decide
    unfold GatherDims.start
    rw [dif_neg h0, Nat.zero_add]
    rfl
  | ⟨1, _⟩ =>
    have h1 : (⟨1, by decide⟩ : Fin 2) ∈ (dims N C M wf).startIndexMap := List.mem_singleton.mpr rfl
    have hk : (⟨1, by decide⟩ : Fin 2) ∉ (dims N C M wf).sKept :=
      fun h => ((GatherDims.mem_sKept _ _).mp h).1 (List.mem_singleton.mpr rfl)
    rw [GatherDims.offCoord_eq_zero _ _ _ hk, Nat.add_zero]
    unfold GatherDims.start
    rw [dif_pos h1]
    have hsi : (dims N C M wf).siIdx (ix2 i j) ⟨List.idxOf (⟨1, by decide⟩ : Fin 2) (dims N C M wf).startIndexMap,
        List.idxOf_lt_length_iff.2 h1⟩ = ix2 j (0 : Fin 1) := by
      funext b; refine Fin.ext ?_
      match b with
      | ⟨0, _⟩ => rfl
      | ⟨1, _⟩ => rfl
    rw [hsi]
    rfl

end ColGather

end
-- ==== Proof.RefValue.lean ====
/-
  The reference program computes the cost matrix, entry by entry.
  Entry (i, j) of the reference's last stage is read back through its operations to the four argument arrays:
  the class term 1 − σ(cls[i, col(lab[j])]) through the column gather, the L1 term as the four-term sum of
  |pred[i, c] − tgt[j, c]|, and the IoU term from the two areas, the clipped side lengths of the intersection, the
  floored union and the quotient; the three unit weights multiply them and the two sums add them, in the
  specification's order.
-/
import proofs.«404024_j78365973282877_2_alg».proof.Proof.Gen.ReferenceIdeal.Read
import proofs.«404024_j78365973282877_2_alg».proof.Proof.Spec
import proofs.«404024_j78365973282877_2_alg».proof.Proof.LibColGather
import Idealize.ShloMosaic.Lib.ValueIdx
import Idealize.ShloMosaic.PureOps.Ideal.Laws
import Idealize.ShloMosaic.Lib.Pipeline.Value

noncomputable section

namespace Cert.Cost.Ref

open Cert.ReferenceIdeal Cert.ReferenceIdeal.Gen Cert.ReferenceIdeal.Read Idealize.ShloMosaic Idealize.ShloMosaic.ValueIdx

/-! ## The class term -/

/-- The start index the gather is given at row `j` of its `[2048, 1]` index column is the reference's wrapped index
    of the label `lab[j]`: `lab[j] − 1`, plus 40 when that is negative. -/
theorem start_eq (x1 : (⟨S2048, .i32⟩ : BufTy).Contents (Elt Ideal)) (j : Fin 2048) :
    val_main_v13 (F := Ideal) x1 (ix2 j (0 : Fin 1)) = rcol (x1 (ix1 j)) := by
  have hi : idx_main_v13 (ix2 j (0 : Fin 1)) = ix1 j := funext fun a => Fin.ext (by match a with | ⟨0, _⟩ => rfl)
  rw [val_main_v13_apply, hi, val_main_v12_apply, val_main_v9_apply, val_main_v11_apply, val_main_v7_apply,
    val_main_v6_apply, val_main_v8_apply, val_main_v10_apply, val_main_c_apply, val_main_c_1_apply, val_main_c_2_apply]
  rfl

/-- The logistic stage at `(i, k)`: 1 / (1 + e^(−cls[i, k])). -/
theorem sig_eq (x0 : (⟨S16384x40, .f32⟩ : BufTy).Contents (Elt Ideal)) (y : S16384x40.Idx) :
    val_main_v5 (F := Ideal) x0 y = sig (x0 y) := by
  rw [val_main_v5_apply, val_main_v4_apply, val_main_cst_0_apply, val_main_v3_apply, val_main_v2_apply, val_main_cst_apply,
    val_main_v1_apply, val_main_v0_apply]
  rfl

/-- The gather's dimension numbers are those of a column gather `x[:, idx]` of a `[16384, 40]` matrix at 2048 indices. -/
theorem gather_dims : gather_S16384x40_S2048x1_S16384x2048_0_1_n_n_1_1_163841
    = ColGather.dims 16384 40 2048 Facts₀.gather_S16384x40_S2048x1_S16384x2048_0_1_n_n_1_1_163841_wf := rfl

/-- The class term at `(i, j)`: 1 − σ(cls[i, col(lab[j])]), the gather reading row `i` of the logistic stage at the
    clamped start index. -/
theorem cls_eq (x0 : (⟨S16384x40, .f32⟩ : BufTy).Contents (Elt Ideal)) (x1 : (⟨S2048, .i32⟩ : BufTy).Contents (Elt Ideal))
    (i : Fin 16384) (j : Fin 2048) :
    val_main_v16 (F := Ideal) x0 x1 (ix2 i j) = one - sig (x0 (ix2 i (col (x1 (ix1 j))))) := by
  rw [val_main_v16_apply, val_main_v15_apply, val_main_cst_3_apply]
  unfold val_main_v14
  rw [gather_dims, ColGather.gather_apply (by decide : 0 < 40), sig_eq, start_eq]
  rfl

/-! ## The L1 term -/

/-- One term of the L1 sum: at coordinate `c` the two broadcasts read `pred[i, c]` and `tgt[j, c]`, and the absolute
    value of the difference is the larger of it and its negation. -/
theorem abs_eq (x2 : (⟨S16384x4, .f32⟩ : BufTy).Contents (Elt Ideal)) (x3 : (⟨S2048x4, .f32⟩ : BufTy).Contents (Elt Ideal))
    (i : Fin 16384) (j : Fin 2048) (c : Fin 4) :
    val_main_v22 (F := Ideal) x2 x3 (idx_main_v23 (ix2 i j) c) = absd (x2 (ix2 i c)) (x3 (ix2 j c)) := by
  have hp : idx_main_v17 (idx_main_v19 (idx_main_v23 (ix2 i j) c)) = ix2 i c :=
    funext fun a => Fin.ext (by match a with | ⟨0, _⟩ => rfl | ⟨1, _⟩ => rfl)
  have ht : idx_main_v18 (idx_main_v20 (idx_main_v23 (ix2 i j) c)) = ix2 j c :=
    funext fun a => Fin.ext (by match a with | ⟨0, _⟩ => rfl | ⟨1, _⟩ => rfl)
  rw [val_main_v22_apply, val_main_v21_apply, val_main_v19_apply, val_main_v17_apply, hp, val_main_v20_apply,
    val_main_v18_apply, ht]
  rfl

/-- The L1 term at `(i, j)`: the sum starts from the zero word and adds the four absolute differences in order. -/
theorem l1_eq (x2 : (⟨S16384x4, .f32⟩ : BufTy).Contents (Elt Ideal)) (x3 : (⟨S2048x4, .f32⟩ : BufTy).Contents (Elt Ideal))
    (i : Fin 16384) (j : Fin 2048) :
    val_main_v23 (F := Ideal) x2 x3 (ix2 i j) = l1 (fun c => x2 (ix2 i c)) (fun c => x3 (ix2 j c)) := by
  rw [val_main_v23_apply, val_main_cst_4_apply, Ideal.ofBits_def, Ideal.ofBits_zero_f32, zero_add, Fin.sum_univ_four,
    abs_eq, abs_eq, abs_eq, abs_eq]
  rfl

/-! ## The two areas -/

/-- The area of prediction box `i`: (x2 − x1) · (y2 − y1), each coordinate a one-column slice read flat. -/
theorem areaP_eq (x2 : (⟨S16384x4, .f32⟩ : BufTy).Contents (Elt Ideal)) (i : Fin 16384) :
    val_main_v34 (F := Ideal) x2 (ix1 i)
      = (x2 (ix2 i 2) - x2 (ix2 i 0)) * (x2 (ix2 i 3) - x2 (ix2 i 1)) := by
  have h2 : idx_main_v24 (idx_main_v25 (ix1 i)) = ix2 i (2 : Fin 4) :=
    funext fun a => Fin.ext (by match a with | ⟨0, _⟩ => exact Nat.div_one _ | ⟨1, _⟩ => rfl)
  have h0 : idx_main_v26 (idx_main_v27 (ix1 i)) = ix2 i (0 : Fin 4) :=
    funext fun a => Fin.ext (by match a with | ⟨0, _⟩ => exact Nat.div_one _ | ⟨1, _⟩ => rfl)
  have h3 : idx_main_v29 (idx_main_v30 (ix1 i)) = ix2 i (3 : Fin 4) :=
    funext fun a => Fin.ext (by match a with | ⟨0, _⟩ => exact Nat.div_one _ | ⟨1, _⟩ => rfl)
  have h1 : idx_main_v31 (idx_main_v32 (ix1 i)) = ix2 i (1 : Fin 4) :=
    funext fun a => Fin.ext (by match a with | ⟨0, _⟩ => exact Nat.div_one _ | ⟨1, _⟩ => rfl)
  rw [val_main_v34_apply, val_main_v28_apply, val_main_v25_apply, val_main_v24_apply, h2, val_main_v27_apply,
    val_main_v26_apply, h0, val_main_v33_apply, val_main_v30_apply, val_main_v29_apply, h3, val_main_v32_apply,
    val_main_v31_apply, h1]
  rfl

/-- The area of target box `j`, likewise. -/
theorem areaT_eq (x3 : (⟨S2048x4, .f32⟩ : BufTy).Contents (Elt Ideal)) (j : Fin 2048) :
    val_main_v45 (F := Ideal) x3 (ix1 j)
      = (x3 (ix2 j 2) - x3 (ix2 j 0)) * (x3 (ix2 j 3) - x3 (ix2 j 1)) := by
  have h2 : idx_main_v35 (idx_main_v36 (ix1 j)) = ix2 j (2 : Fin 4) :=
    funext fun a => Fin.ext (by match a with | ⟨0, _⟩ => exact Nat.div_one _ | ⟨1, _⟩ => rfl)
  have h0 : idx_main_v37 (idx_main_v38 (ix1 j)) = ix2 j (0 : Fin 4) :=
    funext fun a => Fin.ext (by match a with | ⟨0, _⟩ => exact Nat.div_one _ | ⟨1, _⟩ => rfl)
  have h3 : idx_main_v40 (idx_main_v41 (ix1 j)) = ix2 j (3 : Fin 4) :=
    funext fun a => Fin.ext (by match a with | ⟨0, _⟩ => exact Nat.div_one _ | ⟨1, _⟩ => rfl)
  have h1 : idx_main_v42 (idx_main_v43 (ix1 j)) = ix2 j (1 : Fin 4) :=
    funext fun a => Fin.ext (by match a with | ⟨0, _⟩ => exact Nat.div_one _ | ⟨1, _⟩ => rfl)
  rw [val_main_v45_apply, val_main_v39_apply, val_main_v36_apply, val_main_v35_apply, h2, val_main_v38_apply,
    val_main_v37_apply, h0, val_main_v44_apply, val_main_v41_apply, val_main_v40_apply, h3, val_main_v43_apply,
    val_main_v42_apply, h1]
  rfl

/-! ## The intersection -/

/-- The clipped side length of the intersection along x: max(0, min(x2) − max(x1)). -/
theorem side0_eq (x2 : (⟨S16384x4, .f32⟩ : BufTy).Contents (Elt Ideal)) (x3 : (⟨S2048x4, .f32⟩ : BufTy).Contents (Elt Ideal))
    (i : Fin 16384) (j : Fin 2048) :
    val_main_v61 (F := Ideal) x2 x3 (ix3 i j (0 : Fin 2))
      = max 0 (min (x2 (ix2 i 2)) (x3 (ix2 j 2)) - max (x2 (ix2 i 0)) (x3 (ix2 j 0))) := by
  have hp2 : idx_main_v53 (idx_main_v54 (idx_main_v57 (ix3 i j (0 : Fin 2)))) = ix2 i (2 : Fin 4) :=
    funext fun a => Fin.ext (by match a with | ⟨0, _⟩ => rfl | ⟨1, _⟩ => rfl)
  have ht2 : idx_main_v55 (idx_main_v56 (idx_main_v58 (ix3 i j (0 : Fin 2)))) = ix2 j (2 : Fin 4) :=
    funext fun a => Fin.ext (by match a with | ⟨0, _⟩ => rfl | ⟨1, _⟩ => rfl)
  have hp0 : idx_main_v46 (idx_main_v47 (idx_main_v50 (ix3 i j (0 : Fin 2)))) = ix2 i (0 : Fin 4) :=
    funext fun a => Fin.ext (by match a with | ⟨0, _⟩ => rfl | ⟨1, _⟩ => rfl)
  have ht0 : idx_main_v48 (idx_main_v49 (idx_main_v51 (ix3 i j (0 : Fin 2)))) = ix2 j (0 : Fin 4) :=
    funext fun a => Fin.ext (by match a with | ⟨0, _⟩ => rfl | ⟨1, _⟩ => rfl)
  rw [val_main_v61_apply, val_main_call0_v1_apply, val_main_call0_v0_apply, val_main_cst_5_apply, val_main_v60_apply,
    val_main_v59_apply, val_main_v57_apply, val_main_v54_apply, val_main_v53_apply, hp2, val_main_v58_apply,
    val_main_v56_apply, val_main_v55_apply, ht2, val_main_v52_apply, val_main_v50_apply, val_main_v47_apply,
    val_main_v46_apply, hp0, val_main_v51_apply, val_main_v49_apply, val_main_v48_apply, ht0, Ideal.ofBits_def,
    Ideal.ofBits_zero_f32]
  rfl

/-- The clipped side length of the intersection along y: max(0, min(y2) − max(y1)). -/
theorem side1_eq (x2 : (⟨S16384x4, .f32⟩ : BufTy).Contents (Elt Ideal)) (x3 : (⟨S2048x4, .f32⟩ : BufTy).Contents (Elt Ideal))
    (i : Fin 16384) (j : Fin 2048) :
    val_main_v61 (F := Ideal) x2 x3 (ix3 i j (1 : Fin 2))
      = max 0 (min (x2 (ix2 i 3)) (x3 (ix2 j 3)) - max (x2 (ix2 i 1)) (x3 (ix2 j 1))) := by
  have hp2 : idx_main_v53 (idx_main_v54 (idx_main_v57 (ix3 i j (1 : Fin 2)))) = ix2 i (3 : Fin 4) :=
    funext fun a => Fin.ext (by match a with | ⟨0, _⟩ => rfl | ⟨1, _⟩ => rfl)
  have ht2 : idx_main_v55 (idx_main_v56 (idx_main_v58 (ix3 i j (1 : Fin 2)))) = ix2 j (3 : Fin 4) :=
    funext fun a => Fin.ext (by match a with | ⟨0, _⟩ => rfl | ⟨1, _⟩ => rfl)
  have hp0 : idx_main_v46 (idx_main_v47 (idx_main_v50 (ix3 i j (1 : Fin 2)))) = ix2 i (1 : Fin 4) :=
    funext fun a => Fin.ext (by match a with | ⟨0, _⟩ => rfl | ⟨1, _⟩ => rfl)
  have ht0 : idx_main_v48 (idx_main_v49 (idx_main_v51 (ix3 i j (1 : Fin 2)))) = ix2 j (1 : Fin 4) :=
    funext fun a => Fin.ext (by match a with | ⟨0, _⟩ => rfl | ⟨1, _⟩ => rfl)
  rw [val_main_v61_apply, val_main_call0_v1_apply, val_main_call0_v0_apply, val_main_cst_5_apply, val_main_v60_apply,
    val_main_v59_apply, val_main_v57_apply, val_main_v54_apply, val_main_v53_apply, hp2, val_main_v58_apply,
    val_main_v56_apply, val_main_v55_apply, ht2, val_main_v52_apply, val_main_v50_apply, val_main_v47_apply,
    val_main_v46_apply, hp0, val_main_v51_apply, val_main_v49_apply, val_main_v48_apply, ht0, Ideal.ofBits_def,
    Ideal.ofBits_zero_f32]
  rfl

/-- The intersection's area at `(i, j)`: the product of the two clipped side lengths, the clip's `max(0, ·)`
    written as the specification's `max(·, 0)`. -/
theorem overlap_eq (x2 : (⟨S16384x4, .f32⟩ : BufTy).Contents (Elt Ideal)) (x3 : (⟨S2048x4, .f32⟩ : BufTy).Contents (Elt Ideal))
    (i : Fin 16384) (j : Fin 2048) :
    val_main_v66 (F := Ideal) x2 x3 (ix2 i j) = overlap (fun c => x2 (ix2 i c)) (fun c => x3 (ix2 j c)) := by
  have h0 : idx_main_v62 (idx_main_v63 (ix2 i j)) = ix3 i j (0 : Fin 2) :=
    funext fun a => Fin.ext (by
      have hj : j.val < 2048 := j.isLt
      match a with
      | ⟨0, _⟩ => show (i.val * 2048 + j.val) / 2048 = i.val; omega
      | ⟨1, _⟩ => show (i.val * 2048 + j.val) / 1 % 2048 = j.val; omega
      | ⟨2, _⟩ => rfl)
  have h1 : idx_main_v64 (idx_main_v65 (ix2 i j)) = ix3 i j (1 : Fin 2) :=
    funext fun a => Fin.ext (by
      have hj : j.val < 2048 := j.isLt
      match a with
      | ⟨0, _⟩ => show (i.val * 2048 + j.val) / 2048 = i.val; omega
      | ⟨1, _⟩ => show (i.val * 2048 + j.val) / 1 % 2048 = j.val; omega
      | ⟨2, _⟩ => rfl)
  rw [val_main_v66_apply, val_main_v63_apply, val_main_v62_apply, h0, side0_eq, val_main_v65_apply, val_main_v64_apply, h1,
    side1_eq, max_comm (0 : EReal), max_comm (0 : EReal)]
  rfl

/-! ## The union, the quotient, and the entry -/

/-- Intersection over union at `(i, j)`, negated: the two areas broadcast along the other axis, their sum less the
    intersection floored at ε, the quotient, the negation. -/
theorem niou_eq (x2 : (⟨S16384x4, .f32⟩ : BufTy).Contents (Elt Ideal)) (x3 : (⟨S2048x4, .f32⟩ : BufTy).Contents (Elt Ideal))
    (i : Fin 16384) (j : Fin 2048) :
    val_main_v76 (F := Ideal) x2 x3 (ix2 i j) = -(iou (fun c => x2 (ix2 i c)) (fun c => x3 (ix2 j c))) := by
  have hp : idx_main_v67 (idx_main_v69 (ix2 i j)) = ix1 i := funext fun a => Fin.ext (by match a with | ⟨0, _⟩ => rfl)
  have ht : idx_main_v68 (idx_main_v70 (ix2 i j)) = ix1 j := funext fun a => Fin.ext (by match a with | ⟨0, _⟩ => rfl)
  rw [val_main_v76_apply, val_main_v75_apply, val_main_v74_apply, val_main_v72_apply, val_main_v71_apply, val_main_v69_apply,
    val_main_v67_apply, hp, areaP_eq, val_main_v70_apply, val_main_v68_apply, ht, areaT_eq, overlap_eq, val_main_v73_apply,
    val_main_cst_6_apply]
  rfl

/-- The reference's result is the cost matrix: the three weighted terms added in order. -/
theorem ref_eq (x0 : (⟨Cert.ReferenceIdeal.S16384x40, .f32⟩ : BufTy).Contents (Elt Ideal))
    (x1 : (⟨Cert.ReferenceIdeal.S2048, .i32⟩ : BufTy).Contents (Elt Ideal))
    (x2 : (⟨Cert.ReferenceIdeal.S16384x4, .f32⟩ : BufTy).Contents (Elt Ideal))
    (x3 : (⟨Cert.ReferenceIdeal.S2048x4, .f32⟩ : BufTy).Contents (Elt Ideal)) :
    Cert.ReferenceIdeal.Read.val_main_v84 (F := Ideal) x0 x1 x2 x3 = Cert.Cost.cost x0 x1 x2 x3 := by
  funext y
  obtain ⟨i, j, rfl⟩ : ∃ (i : Fin 16384) (j : Fin 2048), y = ix2 i j := ⟨y 0, y 1, eq_ix2 y⟩
  rw [val_main_v84_apply, val_main_v81_apply, val_main_v78_apply, val_main_v77_apply, val_main_cst_7_apply, cls_eq,
    val_main_v80_apply, val_main_v79_apply, val_main_cst_8_apply, l1_eq, val_main_v83_apply, val_main_v82_apply,
    val_main_cst_9_apply, niou_eq]
  rfl

end Cert.Cost.Ref

end
-- ==== Proof.KernelBlock.lean ====
/-
  One grid point of the kernel, entry by entry. The body reads four blocks — `x0`: 1024 predicted boxes [1024, 4];
  `x1`: their 40 class probabilities [1024, 40]; `x2`: 1024 target boxes, transposed [4, 1024]; `x3`: the targets' one-hot
  class selectors, transposed [40, 1024] — and stores one [1024, 1024] block. Entry `(p, q)` of what it stores is

    1 · (1 − Σ_k x1[p, k] · x3[k, q]) + 1 · Σ_c |x0[p, c] − x2[c, q]| + 1 · (0 − IoU(x0[p, :], x2[:, q])),

  the specification's entry with the class term still a sum over the 40 classes. Column slices of `x0` and row slices of
  `x2` give the eight coordinates; a [1024, 1] column and a [1, 1024] row are laid over the block by broadcasting; the
  matrix product into a zero accumulator is the plain sum over the one contracted axis.
-/
import proofs.«404024_j78365973282877_2_alg».proof.Proof.Gen.KernelIdeal.Skeleton
import proofs.«404024_j78365973282877_2_alg».proof.Proof.Spec
import Idealize.ShloMosaic.Lib.ValueIdx
import Idealize.ShloMosaic.Lib.Pipeline.Value
import Idealize.ShloMosaic.PureOps.Ideal.Laws

noncomputable section

namespace Cert.Cost.Block

open Cert.KernelIdeal Cert.KernelIdeal.Gen Idealize.ShloMosaic Idealize.ShloMosaic.ValueIdx

/-! ## The matrix product at an entry -/

/-- The product's dimension numbers: [1024, 40] × [40, 1024], axis 1 of the left against axis 0 of the right. -/
abbrev D : DotDims S1024x40 S40x1024 S1024x1024 := dot_S1024x40_S40x1024_S1024x1024_1_0_0_1_n_n

theorem lhs_row (j : S1024x1024.Idx) (k : D.contr.Idx) : (D.lhsIdx j k 0).val = (j 0).val := by
  unfold DotDims.lhsIdx
  rw [dif_neg (show ¬(0 : Fin S1024x40.rank) ∈ D.lhsBatch by decide),
    dif_pos (show (0 : Fin S1024x40.rank) ∈ D.lhsNonContracting by decide)]
  rfl

theorem lhs_contr (j : S1024x1024.Idx) (k : D.contr.Idx) : (D.lhsIdx j k 1).val = (k ⟨0, by decide⟩).val :=
  D.lhsIdx_val_of_single rfl j k

theorem rhs_contr (j : S1024x1024.Idx) (k : D.contr.Idx) : (D.rhsIdx j k 0).val = (k ⟨0, by decide⟩).val :=
  D.rhsIdx_val_of_single rfl j k

theorem rhs_col (j : S1024x1024.Idx) (k : D.contr.Idx) : (D.rhsIdx j k 1).val = (j 1).val := by
  unfold DotDims.rhsIdx
  rw [dif_neg (show ¬(1 : Fin S40x1024.rank) ∈ D.rhsBatch by decide),
    dif_pos (show (1 : Fin S40x1024.rank) ∈ D.rhsNonContracting by decide)]
  rfl

/-- Entry `(p, q)` of the product into a zero accumulator: the sum over the 40 classes. -/
theorem matmul_entry {φ₁ φ₂ : FTy} (l : FVec Ideal S1024x40 φ₁) (r : FVec Ideal S40x1024 φ₂) (p q : Fin 1024) :
    FloatOps.matmul D none l r (constant S1024x1024 .f32 0x00000000#32) (ix2 p q) = ∑ k : Fin 40, l (ix2 p k) * r (ix2 k q) := by
  rw [Ideal.matmul_constant_zero_apply, ← Equiv.sum_comp (contrEquiv1 D 40 rfl rfl).symm]
  refine Finset.sum_congr rfl fun k _ => ?_
  have hk := contrEquiv1_symm_val D 40 rfl rfl k
  have hl : D.lhsIdx (ix2 p q) ((contrEquiv1 D 40 rfl rfl).symm k) = ix2 p k := funext fun a => Fin.ext (by
    match a with
    | ⟨0, _⟩ => exact lhs_row _ _
    | ⟨1, _⟩ => exact (lhs_contr _ _).trans hk)
  have hr : D.rhsIdx (ix2 p q) ((contrEquiv1 D 40 rfl rfl).symm k) = ix2 k q := funext fun a => Fin.ext (by
    match a with
    | ⟨0, _⟩ => exact (rhs_contr _ _).trans hk
    | ⟨1, _⟩ => exact rhs_col _ _)
  rw [hl, hr]

/-! ## Slices and broadcasts -/

section
variable (x0 : Vec Ideal S1024x4 .f32) (x1 : Vec Ideal S1024x40 .bf16) (x2 : Vec Ideal S4x1024 .f32) (x3 : Vec Ideal S40x1024 .f32)
variable (p q : Fin 1024)

/-- A [1024, 1] column laid over the block is constant along each row. -/
theorem bcol (v : FVec Ideal S1024x1 .f32) (h : S1024x1.Broadcasts S1024x1024) :
    broadcastTo S1024x1024 v h (ix2 p q) = v (ix2 p (0 : Fin 1)) :=
  broadcastTo_apply v h (ix2 p q) (ix2 p (0 : Fin 1)) (fun a => match a with
    | ⟨0, _⟩ => by show p.val = if (1024 : Nat) = 1 then 0 else p.val; rw [if_neg (by decide)]
    | ⟨1, _⟩ => by show 0 = if (1 : Nat) = 1 then 0 else q.val; rw [if_pos rfl])

/-- A [1, 1024] row laid over the block is constant down each column. -/
theorem brow (v : FVec Ideal S1x1024 .f32) (h : S1x1024.Broadcasts S1024x1024) :
    broadcastTo S1024x1024 v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])

/-- Column `c` of the predicted boxes, as a [1024, 1] slice. -/
theorem pcol (c : Fin 4) (h : S1024x4.Slices ![0, c.val] S1024x1) :
    extractStridedSlice S1024x1 ![0, c.val] x0 h (ix2 p (0 : Fin 1)) = x0 (ix2 p c) :=
  extractStridedSlice_apply _ x0 h (ix2 p (0 : Fin 1)) (ix2 p c) (fun a => match a with
    | ⟨0, _⟩ => by show p.val = 0 + p.val; omega
    | ⟨1, _⟩ => by show c.val = c.val + 0; omega)

/-- Row `c` of the transposed target boxes, as a [1, 1024] slice. -/
theorem trow (c : Fin 4) (y : FVec Ideal S4x1024 .f32) (h : S4x1024.Slices ![c.val, 0] S1x1024) :
    extractStridedSlice S1x1024 ![c.val, 0] y h (ix2 (0 : Fin 1) q) = y (ix2 c q) :=
  extractStridedSlice_apply _ y h (ix2 (0 : Fin 1) q) (ix2 c q) (fun a => match a with
    | ⟨0, _⟩ => by show c.val = c.val + 0; omega
    | ⟨1, _⟩ => by show q.val = 0 + q.val; omega)

theorem pay3_at : k0_pay3 x0 (ix2 p (0 : Fin 1)) = x0 (ix2 p (0 : Fin 4)) := by
  unfold k0_pay3; exact pcol x0 p 0 _
theorem pay4_at : k0_pay4 x0 (ix2 p (0 : Fin 1)) = x0 (ix2 p (1 : Fin 4)) := by
  unfold k0_pay4; exact pcol x0 p 1 _
theorem pay5_at : k0_pay5 x0 (ix2 p (0 : Fin 1)) = x0 (ix2 p (2 : Fin 4)) := by
  unfold k0_pay5; exact pcol x0 p 2 _
theorem pay6_at : k0_pay6 x0 (ix2 p (0 : Fin 1)) = x0 (ix2 p (3 : Fin 4)) := by
  unfold k0_pay6; exact pcol x0 p 3 _

theorem pay2_eq : k0_pay2 x2 = x2 := shapeCast_self x2 _

theorem pay7_at : k0_pay7 x2 (ix2 (0 : Fin 1) q) = x2 (ix2 (0 : Fin 4) q) := by
  unfold k0_pay7; rw [pay2_eq]; exact trow q 0 x2 _
theorem pay8_at : k0_pay8 x2 (ix2 (0 : Fin 1) q) = x2 (ix2 (1 : Fin 4) q) := by
  unfold k0_pay8; rw [pay2_eq]; exact trow q 1 x2 _
theorem pay9_at : k0_pay9 x2 (ix2 (0 : Fin 1) q) = x2 (ix2 (2 : Fin 4) q) := by
  unfold k0_pay9; rw [pay2_eq]; exact trow q 2 x2 _
theorem pay10_at : k0_pay10 x2 (ix2 (0 : Fin 1) q) = x2 (ix2 (3 : Fin 4) q) := by
  unfold k0_pay10; rw [pay2_eq]; exact trow q 3 x2 _

/-! ## The payload's pieces at an entry -/

/-- The L1 distance of predicted box `p` and target box `q`. -/
theorem pay11_at : k0_pay11 x0 x2 (ix2 p q) = Cert.Cost.l1 (fun c => x0 (ix2 p c)) (fun c => x2 (ix2 c q)) := by
  unfold k0_pay11
  dsimp only [addf, subf, absf]
  simp only [bcol, brow, pay3_at, pay4_at, pay5_at, pay6_at, pay7_at, pay8_at, pay9_at, pay10_at]
  rfl

/-- The area of predicted box `p`. -/
theorem pay12_at : k0_pay12 x0 (ix2 p (0 : Fin 1)) = (x0 (ix2 p (2 : Fin 4)) - x0 (ix2 p (0 : Fin 4))) * (x0 (ix2 p (3 : Fin 4)) - x0 (ix2 p (1 : Fin 4))) := by
  unfold k0_pay12
  dsimp only [mulf, subf]
  simp only [pay3_at, pay4_at, pay5_at, pay6_at]
  rfl

/-- The area of target box `q`. -/
theorem pay13_at : k0_pay13 x2 (ix2 (0 : Fin 1) q) = (x2 (ix2 (2 : Fin 4) q) - x2 (ix2 (0 : Fin 4) q)) * (x2 (ix2 (3 : Fin 4) q) - x2 (ix2 (1 : Fin 4) q)) := by
  unfold k0_pay13
  dsimp only [mulf, subf]
  simp only [pay7_at, pay8_at, pay9_at, pay10_at]
  rfl

/-- The clipped width of the intersection. -/
theorem pay14_at : k0_pay14 x0 x2 (ix2 p q)
    = max (min (x0 (ix2 p (2 : Fin 4))) (x2 (ix2 (2 : Fin 4) q)) - max (x0 (ix2 p (0 : Fin 4))) (x2 (ix2 (0 : Fin 4) q))) (Ideal.ofBits .f32 0x00000000#32) := by
  unfold k0_pay14
  dsimp only [maximumf, minimumf, subf, broadcast]
  simp only [bcol, brow, pay3_at, pay5_at, pay7_at, pay9_at]
  rfl

/-- The height of the intersection before clipping. -/
theorem pay15_at : k0_pay15 x0 x2 (ix2 p q)
    = min (x0 (ix2 p (3 : Fin 4))) (x2 (ix2 (3 : Fin 4) q)) - max (x0 (ix2 p (1 : Fin 4))) (x2 (ix2 (1 : Fin 4) q)) := by
  unfold k0_pay15
  dsimp only [maximumf, minimumf, subf]
  simp only [bcol, brow, pay4_at, pay6_at, pay8_at, pay10_at]
  rfl

/-- ENTRY `(p, q)` OF THE STORED BLOCK: the specification's entry of predicted box `p` and target box `q`, the class term
    still the sum over the 40 classes of probability times selector. -/
theorem pay1_at : k0_pay1 (k0_pay11 x0 x2) (k0_pay12 x0) (k0_pay13 x2) (k0_pay14 x0 x2) (k0_pay15 x0 x2)
      (Scalar.ofBits .f32 0x00000000#32) x1 x3 (ix2 p q)
    = Cert.Cost.one * (Cert.Cost.one - ∑ k : Fin 40, x1 (ix2 p k) * x3 (ix2 k q))
      + Cert.Cost.one * Cert.Cost.l1 (fun c => x0 (ix2 p c)) (fun c => x2 (ix2 c q))
      + Cert.Cost.one * -(Cert.Cost.iou (fun c => x0 (ix2 p c)) (fun c => x2 (ix2 c q))) := by
  unfold k0_pay1
  dsimp only [addf, subf, mulf, divf, maximumf, broadcast, truncf]
  rw [shapeCast_self x1, shapeCast_self x3]
  simp only [bcol, brow, pay11_at, pay12_at, pay13_at, pay14_at, pay15_at]
  rw [show (matmul dot_S1024x40_S40x1024_S1024x1024_1_0_0_1_n_n none x1 (truncf FTy.bf16 x3 bitsLt_bf16_f32)
        (constant S1024x1024 .f32 0x00000000#32) : FVec Ideal S1024x1024 .f32) (ix2 p q)
      = ∑ k : Fin 40, x1 (ix2 p k) * x3 (ix2 k q) from matmul_entry x1 (truncf FTy.bf16 x3 bitsLt_bf16_f32) p q]
  simp only [Ideal.addf_def, Ideal.subf_def, Ideal.mulf_def, Ideal.divf_def, Ideal.maximumf_def, Ideal.ofBits_def,
    Ideal.ofBits_zero_f32, zero_sub]
  rfl

end

end Cert.Cost.Block

end
-- ==== Proof.KernelHostArr.lean ====
/-
  The three arrays the kernel's host prologue hands to its one region, each as one term of the argument arrays.
  Before the region the host computes: the target boxes transposed, `[2048, 4] → [4, 2048]`; the class probabilities
  σ(cls) = 1 / (1 + e^(−cls)) elementwise on `[16384, 40]`, narrowed to bf16 (at the ideal instance the narrowing is
  the identity); and the one-hot matrix of the class columns, `[2048, 40] → [40, 2048]` after a transpose, whose
  entry `(k, j)` is 1 when the column of label `lab[j]` is `k` and 0 otherwise. The column is the remainder of
  `lab[j] − 1` by 40 carrying the divisor's sign: the truncated remainder `r`, and `r + 40` when `r` is not zero and
  its sign differs from the divisor's.
-/
import proofs.«404024_j78365973282877_2_alg».proof.Proof.Gen.KernelIdeal.Frame
import proofs.«404024_j78365973282877_2_alg».proof.Proof.Spec
import Idealize.ShloMosaic.Lib.StableHlo.Run
import Idealize.ShloMosaic.Lib.ValueIdx

set_option maxRecDepth 16384

noncomputable section

namespace Cert.Cost.Host

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ Cert.KernelIdeal.sig) → Buf (Elt Ideal) ℓ)

/-! ## The class column, as arrays of 32-bit words -/

/-- The divisor as the remainder function takes it: 40 (it would take 1 in place of a zero divisor). -/
abbrev dv : IVec S_ 32 :=
  select (cmpi .eq (id (constantI S_ 32 40#32)) (constantI S_ 32 0#32)) (constantI S_ 32 1#32) (id (constantI S_ 32 40#32))

/-- The truncated remainders of `lab − 1` by the divisor. -/
abbrev remArr (t : IVec S2048 32) : IVec S2048 32 :=
  Host.remsi (subi t (broadcastInDim S2048 ![] bcast_S_S2048 (constantI S_ 32 1#32))) (broadcastInDim S2048 ![] bcast_S_S2048 dv)

/-- The class columns: the remainder, plus the divisor where the remainder is not zero and its sign differs from the
    divisor's. -/
abbrev colArr (t : IVec S2048 32) : IVec S2048 32 :=
  select
    (andi
      (cmpi .ne (cmpi .slt (remArr t) (broadcastInDim S2048 ![] bcast_S_S2048 (constantI S_ 32 0#32)))
        (broadcastInDim S2048 ![] bcast_S_S2048 (cmpi .slt dv (constantI S_ 32 0#32))))
      (cmpi .ne (remArr t) (broadcastInDim S2048 ![] bcast_S_S2048 (constantI S_ 32 0#32))))
    (addi (remArr t) (broadcastInDim S2048 ![] bcast_S_S2048 dv))
    (remArr t)

/-- At label `j` the column array holds the kernel's column of `lab[j]`: every operation is elementwise, the scalar
    broadcasts read their scalar, and the divisor evaluates to 40. -/
theorem colArr_at (t : IVec S2048 32) (j : Fin 2048) : colArr t (ix1 j) = Cert.Cost.kcol (t (ix1 j)) := rfl

/-! ## The three arrays as the region finds them -/

/-- The first array is the target boxes transposed. -/
theorem tgtT_arr (c : Dev nD) :
    (V m c main_v0 : (⟨S4x2048, .f32⟩ : BufTy).Contents (Elt Ideal))
      = transpose S4x2048 [1, 0] (m ((c : Thread nD τ).loc main_arg3) : (⟨S2048x4, .f32⟩ : BufTy).Contents (Elt Ideal))
          transposes_S2048x4_S4x2048_1_0 := by
  dsimp only [V]
  simp only [hostOps0, hostOps0_1, hostOps0_2, hostOps0_3, List.flatten_cons, List.flatten_nil, List.append_nil,
    List.cons_append, List.nil_append]
  after_results

/-- The class probabilities: 1 / (1 + e^(−cls)) elementwise, narrowed to bf16. -/
theorem prob_arr (c : Dev nD) :
    (V m c main_v12 : (⟨S16384x40, .bf16⟩ : BufTy).Contents (Elt Ideal))
      = (truncf (F := Ideal) .bf16
          (Host.divf (broadcastInDim S16384x40 ![] bcast_S_S16384x40 (constant S_ .f32 0x3F800000#32))
            (addf (broadcastInDim S16384x40 ![] bcast_S_S16384x40 (constant S_ .f32 0x3F800000#32))
              (Host.exp (Host.negf (m ((c : Thread nD τ).loc main_arg0) : (⟨S16384x40, .f32⟩ : BufTy).Contents (Elt Ideal))))))
          bitsLt_bf16_f32 : (⟨S16384x40, .bf16⟩ : BufTy).Contents (Elt Ideal)) := by
  dsimp only [V]
  simp only [hostOps0, hostOps0_1, hostOps0_2, hostOps0_3, List.flatten_cons, List.flatten_nil, List.append_nil,
    List.cons_append, List.nil_append]
  after_results

set_option maxHeartbeats 4000000 in
/-- The one-hot matrix: the column array as a `[2048, 1]` column spread along 40 columns, compared for equality with
    the column numbers `0 … 39` spread along 2048 rows, the bit read as 0.0 or 1.0, the whole transposed. -/
theorem onehot_arr (c : Dev nD) :
    (V m c main_v5 : (⟨S40x2048, .f32⟩ : BufTy).Contents (Elt Ideal))
      = transpose S40x2048 [1, 0]
          (uitofp (F := Ideal) .f32 (cmpi .eq
            (broadcastInDim S2048x40 ![0, 1] bcast_S2048x1_S2048x40_0_1
              (broadcastInDim S2048x1 ![0] bcast_S2048_S2048x1_0
                (colArr (m ((c : Thread nD τ).loc main_arg1) : (⟨S2048, .i32⟩ : BufTy).Contents (Elt Ideal)))))
            (broadcastInDim S2048x40 ![0, 1] bcast_S1x40_S2048x40_0_1 (iotaInDim S1x40 32 1))))
          transposes_S2048x40_S40x2048_1_0 := by
  dsimp only [V]
  simp only [hostOps0, hostOps0_1, hostOps0_2, hostOps0_3, List.flatten_cons, List.flatten_nil, List.append_nil,
    List.cons_append, List.nil_append]
  after_results
  rfl

end Cert.Cost.Host

end
-- ==== Proof.KernelHost.lean ====
/-
  The kernel's three host-computed arrays read at an index, in terms of the argument arrays:
  the transposed targets at `(k, j)` are `tgt[j, k]`; the class probabilities at `(i, k)` are σ(cls[i, k]); the
  one-hot matrix at `(k, j)` is the bit "the column of label `lab[j]` is `k`" read as 0.0 or 1.0.
-/
import proofs.«404024_j78365973282877_2_alg».proof.Proof.KernelHostArr
import Idealize.ShloMosaic.Lib.Pipeline.Value

set_option maxRecDepth 16384

noncomputable section

namespace Cert.Cost.Host

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ Cert.KernelIdeal.sig) → Buf (Elt Ideal) ℓ)

/-- The transposed target boxes at `(k, j)`: coordinate `k` of target `j`. -/
theorem tgtT_at (c : Dev nD) (k : Fin 4) (j : Fin 2048) :
    (V m c main_v0 : (⟨S4x2048, .f32⟩ : BufTy).Contents (Elt Ideal)) (ix2 k j)
      = (m ((c : Thread nD τ).loc main_arg3) : (⟨S2048x4, .f32⟩ : BufTy).Contents (Elt Ideal)) (ix2 j k) := by
  rw [tgtT_arr]
  exact transpose_apply [1, 0] _ transposes_S2048x4_S4x2048_1_0 (ix2 k j) (ix2 j k)
    (fun b => by match b with | ⟨0, _⟩ => rfl | ⟨1, _⟩ => rfl)

/-- The class probabilities at `(i, k)`: σ(cls[i, k]); every operation is elementwise and the two scalar broadcasts
    read the word of 1.0. -/
theorem prob_at (c : Dev nD) (i : Fin 16384) (k : Fin 40) :
    (V m c main_v12 : (⟨S16384x40, .bf16⟩ : BufTy).Contents (Elt Ideal)) (ix2 i k)
      = Cert.Cost.sig ((m ((c : Thread nD τ).loc main_arg0) : (⟨S16384x40, .f32⟩ : BufTy).Contents (Elt Ideal)) (ix2 i k)) := by
  rw [prob_arr]
  rfl

/-- The one-hot matrix at `(k, j)`: the transpose reads `(j, k)`, the column broadcast reads the column array at `j`,
    the iota broadcast reads the word of `k`, and the comparison's bit is read as 0.0 or 1.0. -/
theorem onehot_at (c : Dev nD) (k : Fin 40) (j : Fin 2048) :
    (V m c main_v5 : (⟨S40x2048, .f32⟩ : BufTy).Contents (Elt Ideal)) (ix2 k j)
      = FloatOps.uitofp (F := Ideal) .f32 (IntOp.cmpi .eq
          (Cert.Cost.kcol ((m ((c : Thread nD τ).loc main_arg1) : (⟨S2048, .i32⟩ : BufTy).Contents (Elt Ideal)) (ix1 j)))
          (BitVec.ofNat 32 k.val)) := by
  rw [onehot_arr, transpose_apply [1, 0] _ transposes_S2048x40_S40x2048_1_0 (ix2 k j) (ix2 j k)
    (fun b => by match b with | ⟨0, _⟩ => rfl | ⟨1, _⟩ => rfl)]
  show FloatOps.uitofp (F := Ideal) .f32 (IntOp.cmpi .eq
      (broadcastInDim S2048x40 ![0, 1] bcast_S2048x1_S2048x40_0_1
        (broadcastInDim S2048x1 ![0] bcast_S2048_S2048x1_0
          (colArr (m ((c : Thread nD τ).loc main_arg1) : (⟨S2048, .i32⟩ : BufTy).Contents (Elt Ideal)))) (ix2 j k))
      (broadcastInDim S2048x40 ![0, 1] bcast_S1x40_S2048x40_0_1 (iotaInDim S1x40 32 1) (ix2 j k))) = _
  rw [broadcastInDim_apply ![0, 1] bcast_S2048x1_S2048x40_0_1 _ (ix2 j k) (ix2 j (0 : Fin 1))
      (fun a => by match a with
        | ⟨0, _⟩ => show j.val = if (2048 : Nat) = 1 then 0 else j.val; rw [if_neg (by decide)]
        | ⟨1, _⟩ => show 0 = if (1 : Nat) = 1 then 0 else k.val; rw [if_pos rfl]),
    broadcastInDim_apply ![0] bcast_S2048_S2048x1_0 _ (ix2 j (0 : Fin 1)) (ix1 j)
      (fun a => by match a with
        | ⟨0, _⟩ => show j.val = if (2048 : Nat) = 1 then 0 else j.val; rw [if_neg (by decide)]),
    broadcastInDim_apply ![0, 1] bcast_S1x40_S2048x40_0_1 _ (ix2 j k) (ix2 (0 : Fin 1) k)
      (fun a => by match a with
        | ⟨0, _⟩ => show 0 = if (1 : Nat) = 1 then 0 else j.val; rw [if_pos rfl]
        | ⟨1, _⟩ => show k.val = if (40 : Nat) = 1 then 0 else k.val; rw [if_neg (by decide)]),
    colArr_at]
  rfl

end Cert.Cost.Host

end
-- ==== Proof.OneHot.lean ====
/-
  The one-hot selection. The kernel gathers a class probability by multiplying the row of 40 probabilities with a
  selector column that is 1 at the label's class and 0 elsewhere, and summing. With the selector built from the kernel's
  column word (`kcol`), and the label in the range where that word is the reference's column (`col`), the sum has one
  nonzero term: the probability at the reference's column. On the extended reals `x · 0 = 0` and `x · 1 = x` hold for
  every `x`, infinite ones included, so nothing is asked of the probabilities.
-/
import Idealize.ShloMosaic.PureOps.Ideal
import proofs.«404024_j78365973282877_2_alg».proof.Proof.ClassIndex

noncomputable section

namespace Cert.Cost

open Idealize.ShloMosaic

/-- The selector's entry for class `k`: the comparison of two column words, as an extended real: 1 when they are the
    same class and 0 when not. -/
theorem selector_eq (a k : Fin 40) :
    FloatOps.uitofp (F := Ideal) .f32 (IntOp.cmpi .eq (BitVec.ofNat 32 a.val) (BitVec.ofNat 32 k.val))
      = if k = a then (1 : EReal) else 0 := by
  by_cases hk : k = a
  · subst hk
    rw [if_pos rfl]
    show (((BitVec.ofBool (BitVec.ofNat 32 k.val == BitVec.ofNat 32 k.val)).toNat : ℝ) : EReal) = 1
    rw [beq_self_eq_true]
    simp
  · rw [if_neg hk]
    have hne : (BitVec.ofNat 32 a.val == BitVec.ofNat 32 k.val) = false := by
      rw [beq_eq_false_iff_ne]
      exact fun e => hk ((ofNat_eq_iff a k).1 e).symm
    show (((BitVec.ofBool (BitVec.ofNat 32 a.val == BitVec.ofNat 32 k.val)).toNat : ℝ) : EReal) = 0
    rw [hne]
    simp

/-- THE SELECTION: for a label between -39 and 40 the sum over the classes of probability times selector is the
    probability at the column the reference reads. -/
theorem onehot_sum (s : Fin 40 → EReal) (t : BitVec 32) (hlo : (-39#32 : BitVec 32).sle t = true) (hhi : t.sle 40#32 = true) :
    ∑ k : Fin 40, s k * FloatOps.uitofp (F := Ideal) .f32 (IntOp.cmpi .eq (kcol t) (BitVec.ofNat 32 k.val)) = s (col t) := by
  rw [kcol_eq_col t hlo hhi]
  simp only [selector_eq]
  rw [Finset.sum_eq_single (col t)]
  · rw [if_pos rfl, mul_one]
  · intro k _ hk
    rw [if_neg hk, mul_zero]
  · intro h
    exact absurd (Finset.mem_univ _) h

end Cert.Cost

end
-- ==== Proof.KernelValue.lean ====
/-
  The kernel's result array, from its 32 grid points to one function of the arguments. The grid is 16 × 2; point
  `(I, J)` reads rows `1024·I …` of the predicted boxes and of the class probabilities, columns `1024·J …` of the transposed
  target boxes and of the transposed one-hot selectors, and writes block `(I, J)` of the [16384, 2048] result. Entry
  `(p, q)` of that block is the specification's entry for prediction `i = 1024·I + p` and target `j = 1024·J + q`:
  the predicted box and the probabilities are rows `i` of their arrays, the target box is row `j` of `tgt` (through the
  transposition), and the selector column `j` is 1 at the kernel's class column of `lab[j]`, so that, the label being
  in range, the sum of probability times selector is the probability at the reference's column (OneHot.lean). The 32
  blocks tile the result, so the array after the run is the cost matrix.
-/
import proofs.«404024_j78365973282877_2_alg».proof.Proof.Gen.KernelIdeal.Value
import proofs.«404024_j78365973282877_2_alg».proof.Proof.KernelBlock
import proofs.«404024_j78365973282877_2_alg».proof.Proof.KernelHost
import proofs.«404024_j78365973282877_2_alg».proof.Proof.OneHot
import Idealize.ShloMosaic.Lib.Pipeline.Value
import Idealize.ShloMosaic.Lib.ValueIdx

set_option maxRecDepth 16384

noncomputable section

namespace Cert.Cost.Kernel

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ Cert.KernelIdeal.sig) → Buf (Elt Ideal) ℓ) (ρ : Dev nD → PrngReg)

theorem hz : (![0, 0] : Fin 2 → Nat) = fun _ => 0 := funext fun a => by fin_cases a <;> rfl

/-- The printed index maps over the 32 points: the two row-blocked inputs move with the output's row block and stay at
    column block 0; the two column-blocked inputs stay at row block 0 and move with the output's column block; the
    output's block indices range over 16 × 2. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) < 16 ∧ win0_4.index t (1 : Fin 2) < 2 :=
  (by decide +kernel : ∀ t : Fin grid0.N, _)

/-- Every block of the result is some point's. -/
theorem idx_onto : ∀ (a : Fin 16) (b : Fin 2), ∃ t : Fin cfg0.N, win0_4.index t = ![a.val, b.val] :=
  (by decide +kernel : ∀ (a : Fin 16) (b : Fin 2), ∃ t : Fin grid0.N, win0_4.index t = ![a.val, b.val])

/-- The prediction that entry `p` of point `t`'s block belongs to. -/
def row (t : Fin cfg0.N) (p : Fin 1024) : Fin 16384 :=
  ⟨win0_4.index t (0 : Fin 2) * 1024 + p.val, by have := (idx_facts t).2.2.2.2.2.2.2.2.1; have := p.isLt; omega⟩

/-- The target that entry `q` of point `t`'s block belongs to. -/
def tcol (t : Fin cfg0.N) (q : Fin 1024) : Fin 2048 :=
  ⟨win0_4.index t (1 : Fin 2) * 1024 + q.val, by have := (idx_facts t).2.2.2.2.2.2.2.2.2; have := q.isLt; omega⟩

/-! ## The four input blocks, located in the argument arrays -/

/-- The predicted boxes' block: rows `row t ·` of `pred`. -/
theorem blk_pred (c : Dev nD) (t : Fin cfg0.N) (p : Fin 1024) (k : Fin 4) :
    (iblk m c 0 t : Vec Ideal S1024x4 .f32) (ix2 p k)
      = (m ((c : Thread nD τ).loc main_arg2) : (⟨S16384x4, .f32⟩ : BufTy).Contents (Elt Ideal)) (ix2 (row t p) k) := by
  obtain ⟨e0, e1, -⟩ := idx_facts t
  show V m c main_arg2 (((cfg0.win 0).blk t).view.emb (ix2 p k)) = _
  rw [V_main_arg2]
  refine congrArg _ (funext fun a => Fin.ext ?_)
  match a with
  | ⟨0, _⟩ => show win0_0.index t (0 : Fin 2) * 1024 + 1 * p.val = win0_4.index t (0 : Fin 2) * 1024 + p.val; omega
  | ⟨1, _⟩ => show win0_0.index t (1 : Fin 2) * 4 + 1 * k.val = k.val; omega

/-- The class probabilities' block: rows `row t ·` of σ(cls). -/
theorem blk_prob (c : Dev nD) (t : Fin cfg0.N) (p : Fin 1024) (k : Fin 40) :
    (iblk m c 1 t : Vec Ideal S1024x40 .bf16) (ix2 p k)
      = Cert.Cost.sig ((m ((c : Thread nD τ).loc main_arg0) : (⟨S16384x40, .f32⟩ : BufTy).Contents (Elt Ideal)) (ix2 (row t p) k)) := by
  obtain ⟨-, -, e0, e1, -⟩ := idx_facts t
  rw [← Cert.Cost.Host.prob_at m c (row t p) k]
  show V m c main_v12 (((cfg0.win 1).blk t).view.emb (ix2 p k)) = _
  refine congrArg _ (funext fun a => Fin.ext ?_)
  match a with
  | ⟨0, _⟩ => show win0_1.index t (0 : Fin 2) * 1024 + 1 * p.val = win0_4.index t (0 : Fin 2) * 1024 + p.val; omega
  | ⟨1, _⟩ => show win0_1.index t (1 : Fin 2) * 40 + 1 * k.val = k.val; omega

/-- The transposed target boxes' block: columns `tcol t ·`, that is rows `tcol t ·` of `tgt`. -/
theorem blk_tgt (c : Dev nD) (t : Fin cfg0.N) (k : Fin 4) (q : Fin 1024) :
    (iblk m c 2 t : Vec Ideal S4x1024 .f32) (ix2 k q)
      = (m ((c : Thread nD τ).loc main_arg3) : (⟨S2048x4, .f32⟩ : BufTy).Contents (Elt Ideal)) (ix2 (tcol t q) k) := by
  obtain ⟨-, -, -, -, e0, e1, -⟩ := idx_facts t
  rw [← Cert.Cost.Host.tgtT_at m c k (tcol t q)]
  show V m c main_v0 (((cfg0.win 2).blk t).view.emb (ix2 k q)) = _
  refine congrArg _ (funext fun a => Fin.ext ?_)
  match a with
  | ⟨0, _⟩ => show win0_2.index t (0 : Fin 2) * 4 + 1 * k.val = k.val; omega
  | ⟨1, _⟩ => show win0_2.index t (1 : Fin 2) * 1024 + 1 * q.val = win0_4.index t (1 : Fin 2) * 1024 + q.val; omega

/-- The transposed selectors' block: column `tcol t q` is 1 at the kernel's class column of that target's label. -/
theorem blk_sel (c : Dev nD) (t : Fin cfg0.N) (k : Fin 40) (q : Fin 1024) :
    (iblk m c 3 t : Vec Ideal S40x1024 .f32) (ix2 k q)
      = FloatOps.uitofp (F := Ideal) .f32 (IntOp.cmpi .eq
          (Cert.Cost.kcol ((m ((c : Thread nD τ).loc main_arg1) : (⟨S2048, .i32⟩ : BufTy).Contents (Elt Ideal)) (ix1 (tcol t q))))
          (BitVec.ofNat 32 k.val)) := by
  obtain ⟨-, -, -, -, -, -, e0, e1, -⟩ := idx_facts t
  rw [← Cert.Cost.Host.onehot_at m c k (tcol t q)]
  show V m c main_v5 (((cfg0.win 3).blk t).view.emb (ix2 k q)) = _
  refine congrArg _ (funext fun a => Fin.ext ?_)
  match a with
  | ⟨0, _⟩ => show win0_3.index t (0 : Fin 2) * 40 + 1 * k.val = k.val; omega
  | ⟨1, _⟩ => show win0_3.index t (1 : Fin 2) * 1024 + 1 * q.val = win0_4.index t (1 : Fin 2) * 1024 + q.val; omega

/-! ## What a point writes back, the cover, the array -/

/-- The labels' range, as the precondition gives it (LabelRange.lean). -/
def LabelsOk : Prop := ∀ (c : Dev nD) (j : Fin 2048),
  (-39#32 : BitVec 32).sle ((m ((c : Thread nD τ).loc main_arg1) : (⟨S2048, .i32⟩ : BufTy).Contents (Elt Ideal)) (ix1 j)) = true
  ∧ ((m ((c : Thread nD τ).loc main_arg1) : (⟨S2048, .i32⟩ : BufTy).Contents (Elt Ideal)) (ix1 j)).sle 40#32 = true

/-- The cost matrix of this memory's argument arrays on core `c`. -/
abbrev costOf (c : Dev nD) : (⟨S16384x2048, .f32⟩ : BufTy).Contents (Elt Ideal) :=
  Cert.Cost.cost (m ((c : Thread nD τ).loc main_arg0)) (m ((c : Thread nD τ).loc main_arg1))
    (m ((c : Thread nD τ).loc main_arg2)) (m ((c : Thread nD τ).loc main_arg3))

/-- WHAT POINT `t` WRITES BACK is block `t` of the cost matrix. -/
theorem flushed_eq (hlab : LabelsOk m) (c : Dev nD) (t : Fin cfg0.N) :
    (dats m 0 c).flushed 4 t = ((cfg0.win 4).blk t).view.read (Elt Ideal) (costOf m c) := by
  rw [flushed4]
  unfold out0_4
  rw [View.canon_unit_zero hz]
  simp only [View.ld_unit_zero (S := S1024x4) hz, View.ld_unit_zero (S := S1024x40) hz, View.ld_unit_zero (S := S4x1024) hz,
    View.ld_unit_zero (S := S40x1024) hz]
  funext y
  obtain ⟨p, q, rfl⟩ : ∃ (p q : Fin 1024), y = ix2 p q := ⟨y 0, y 1, eq_ix2 y⟩
  have hemb : ((cfg0.win 4).blk t).view.emb (ix2 p q) = ix2 (row t p) (tcol t q) := by
    funext a; apply Fin.ext
    match a with
    | ⟨0, _⟩ => show win0_4.index t (0 : Fin 2) * 1024 + 1 * p.val = win0_4.index t (0 : Fin 2) * 1024 + p.val; omega
    | ⟨1, _⟩ => show win0_4.index t (1 : Fin 2) * 1024 + 1 * q.val = win0_4.index t (1 : Fin 2) * 1024 + q.val; omega
  show k0_pay1 (k0_pay11 (iblk m c 0 t) (iblk m c 2 t)) (k0_pay12 (iblk m c 0 t)) (k0_pay13 (iblk m c 2 t))
      (k0_pay14 (iblk m c 0 t) (iblk m c 2 t)) (k0_pay15 (iblk m c 0 t) (iblk m c 2 t)) (Scalar.ofBits .f32 0x00000000#32)
      (iblk m c 1 t) (iblk m c 3 t) (ix2 p q) = costOf m c (((cfg0.win 4).blk t).view.emb (ix2 p q))
  rw [hemb]
  refine (Cert.Cost.Block.pay1_at (iblk m c 0 t) (iblk m c 1 t) (iblk m c 2 t) (iblk m c 3 t) p q).trans ?_
  simp only [blk_pred, blk_prob, blk_tgt, blk_sel]
  rw [Cert.Cost.onehot_sum (fun k => Cert.Cost.sig ((m ((c : Thread nD τ).loc main_arg0) : (⟨S16384x40, .f32⟩ : BufTy).Contents (Elt Ideal)) (ix2 (row t p) k)))
    _ (hlab c (tcol t q)).1 (hlab c (tcol t q)).2]
  rfl

/-- An index of the result is in point `t`'s block iff each coordinate is in the block's range on its axis. -/
theorem mem_blk (t : Fin cfg0.N) (i : S16384x2048.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v13).slice (win0_4.rect t)).set ↔ _
  rw [View.set_slice_whole, Rect.mem_set_unit]
  exact Iff.rfl

/-- The 32 blocks cover the result: entry `(i, j)` is in the block of the point at `(i / 1024, j / 1024)`. -/
theorem cover (i : S16384x2048.Idx) : ∃ t : Fin cfg0.N, (cfg0.win 4).flush t = true ∧ i ∈ ((cfg0.win 4).blk t).view.set := by
  have hi0 : (i 0).val < 16384 := (i 0).isLt
  have hi1 : (i 1).val < 2048 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- THE ARRAY after the run is the cost matrix. -/
theorem final (hlab : LabelsOk m) (c : Dev nD) : (dats m 0 c).arrAt 4 cfg0.N = costOf m c :=
  (dats m 0 c).arrAt_eq_of_cover 4 (costOf m c) (fun t _ => flushed_eq m hlab c t) cover

/-- THE KERNEL'S RUN: every weakly fair execution ends with the result array at the cost matrix of the arguments and
    the arguments unchanged. -/
theorem run (hlab : LabelsOk m) : θ_run defs (onTc (τ := τ) (main (F := Ideal))) ⟨m, fun _ => 0, ρ⟩ fun r => ∀ c : Dev nD,
      r.2.mem ((c : Thread nD τ).loc main_v13) = costOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m hlab c), (h c).2⟩) (run_blocks m ρ)

end Cert.Cost.Kernel

end
-- ==== Proof.lean ====
/-
  A matching-cost matrix: for 16384 predictions (a box and 40 class logits each) and 2048 targets (a box and a class
  label each), entry `(i, j)` is

    1 · (1 − σ(cls[i, class of label j])) + 1 · ‖pred[i] − tgt[j]‖₁ + 1 · (− IoU(pred[i], tgt[j])).

  The reference reads the class probability with an indexing `σ(cls)[:, lab − 1]`: a negative index wraps by 40 and the
  gather clamps what is left into `[0, 39]`. The kernel instead multiplies the row of 40 probabilities with a one-hot
  selector built from `(lab − 1) mod 40`. The two agree exactly on the labels for which `lab − 1` is an index of an axis
  of 40, `-39 ≤ lab ≤ 40`, which the precondition states (outside it the reference indexes out of range and clamps,
  the kernel wraps around). Everything else is the same arithmetic on the extended reals spelt two ways: the L1
  distance as a four-term sum or as a reduction from zero, the clip at zero with its arguments in either order, the
  negation as `0 − x`, a bf16 copy of the probabilities (the identity here), and the blocks of a 16 × 2 grid against
  whole arrays.

  Spec.lean states the matrix; RefValue.lean reads the reference's result as it; KernelBlock.lean, KernelHost.lean and
  KernelValue.lean read the kernel's; ClassIndex.lean and OneHot.lean are the integer arithmetic of the class column and
  the selection; LabelRange.lean decodes the labels' range from the precondition. The kernel's idealization rewrote
  nothing, so `preserves` is trivial.
-/
import proofs.«404024_j78365973282877_2_alg».proof.Defs
import proofs.«404024_j78365973282877_2_alg».proof.Proof.Gen.Kernel
import proofs.«404024_j78365973282877_2_alg».proof.Proof.Gen.Kernel.Skeleton
import proofs.«404024_j78365973282877_2_alg».proof.Proof.Gen.Kernel.Launch
import proofs.«404024_j78365973282877_2_alg».proof.Proof.Gen.Kernel.Points
import proofs.«404024_j78365973282877_2_alg».proof.Proof.Gen.Kernel.Frame
import proofs.«404024_j78365973282877_2_alg».proof.Proof.Gen.KernelIdeal
import proofs.«404024_j78365973282877_2_alg».proof.Proof.Gen.KernelIdeal.Skeleton
import proofs.«404024_j78365973282877_2_alg».proof.Proof.Gen.KernelIdeal.Launch
import proofs.«404024_j78365973282877_2_alg».proof.Proof.Gen.KernelIdeal.Points
import proofs.«404024_j78365973282877_2_alg».proof.Proof.Gen.KernelIdeal.Frame
import proofs.«404024_j78365973282877_2_alg».proof.Proof.Gen.KernelIdeal.Value
import proofs.«404024_j78365973282877_2_alg».proof.Proof.Gen.ReferenceIdeal
import proofs.«404024_j78365973282877_2_alg».proof.Proof.Gen.ReferenceIdeal.Run
import proofs.«404024_j78365973282877_2_alg».proof.Proof.Gen.ReferenceIdeal.Read
import proofs.«404024_j78365973282877_2_alg».proof.Proof.Gen.Pre_finite_inputs
import proofs.«404024_j78365973282877_2_alg».proof.Proof.LabelRange
import proofs.«404024_j78365973282877_2_alg».proof.Proof.RefValue
import proofs.«404024_j78365973282877_2_alg».proof.Proof.KernelValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals, from memories that agree on the four arguments and whose labels lie in `-39 … 40`, both
    programs end with the cost matrix of those arguments. -/
theorem algebraic : Cert.algebraic_KernelIdeal_ReferenceIdeal := by
  intro m ρ m' ρ' hpre hagree
  have hlab : Cert.Cost.Kernel.LabelsOk m := fun c j => Cert.Cost.label_range _ _ _ _ (hpre c) j
  refine ⟨fun c => Cert.Cost.Kernel.costOf m c, Cert.Cost.Kernel.run m ρ hlab, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v84_eq, Cert.Cost.Ref.ref_eq, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
